-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v7)) (v2 : (c : Dev Cert.KernelIdeal.nD) → Buf (Elt Ideal) ((c.tc : Thread Cert.KernelIdeal.nD Cert.KernelIdeal.τ).loc Cert.KernelIdeal.main_v8)) (v3 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_v8) = v2 c
          ∧ r.2.mem ((c.tc : Thread Cert.KernelIdeal.nD Cert.KernelIdeal.τ).loc Cert.KernelIdeal.main_v9) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_v15) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x384x56x56 : Shape := ⟨4, ![16, 384, 56, 56]⟩
abbrev S1024x384 : Shape := ⟨2, ![1024, 384]⟩
abbrev S_ : Shape := ⟨0, ![]⟩

class Facts : Prop where
  bcast_S_S16x384x56x56 : S_.BroadcastsInDim S16x384x56x56 (![] : Fin 0 → Fin S16x384x56x56.rank)
  reducesTo_S16x384x56x56_S_d0_1_2_3 : S16x384x56x56.ReducesTo [0, 1, 2, 3] S_
  h_S_ : 0 < S_.numel
  bcast_S_S1024x384 : S_.BroadcastsInDim S1024x384 (![] : Fin 0 → Fin S1024x384.rank)
  reducesTo_S1024x384_S_d0_1 : S1024x384.ReducesTo [0, 1] S_

variable [Facts]

def fn {F : FTy → Type} [FloatOps F] (main_arg0 : FVec F S16x384x56x56 .f32) (main_arg1 : FVec F S1024x384 .f32) : IVec S_ 1 :=
  let main_v0 : FVec F S16x384x56x56 .f32 := Host.absf main_arg0
  let main_cst : FVec F S_ .f32 := constant S_ .f32 0x7F800000#32
  let main_v1 : FVec F S16x384x56x56 .f32 := broadcastInDim S16x384x56x56 ![] bcast_S_S16x384x56x56 main_cst
  let main_v2 : IVec S16x384x56x56 1 := cmpf .olt main_v0 main_v1
  let main_c : IVec S_ 1 := constantI S_ 1 1#1
  let main_v3 : IVec S_ 1 := (fun x v => Host.reduce IntOp.andi x v reducesTo_S16x384x56x56_S_d0_1_2_3 h_S_) main_v2 main_c
  let main_v4 : FVec F S1024x384 .f32 := Host.absf main_arg1
  let main_cst_0 : FVec F S_ .f32 := constant S_ .f32 0x7F800000#32
  let main_v5 : FVec F S1024x384 .f32 := broadcastInDim S1024x384 ![] bcast_S_S1024x384 main_cst_0
  let main_v6 : IVec S1024x384 1 := cmpf .olt main_v4 main_v5
  let main_c_1 : IVec S_ 1 := constantI S_ 1 1#1
  let main_v7 : IVec S_ 1 := (fun x v => Host.reduce IntOp.andi x v reducesTo_S1024x384_S_d0_1 h_S_) main_v6 main_c_1
  let main_v8 : IVec S_ 1 := andi main_v3 main_v7
  main_v8
-- ==== Kernel.lean ====
abbrev S16x384x56x56 : Shape := ⟨4, ![16, 384, 56, 56]⟩
abbrev S1024x384 : Shape := ⟨2, ![1024, 384]⟩
abbrev S16x384x3136 : Shape := ⟨3, ![16, 384, 3136]⟩
abbrev S_ : Shape := ⟨0, ![]⟩
abbrev S1024 : Shape := ⟨1, ![1024]⟩
abbrev S1x1024 : Shape := ⟨2, ![1, 1024]⟩
abbrev S16x3136x384 : Shape := ⟨3, ![16, 3136, 384]⟩
abbrev S16x3136x1024 : Shape := ⟨3, ![16, 3136, 1024]⟩
abbrev S16x1024x3136 : Shape := ⟨3, ![16, 1024, 3136]⟩
abbrev S1x384x512 : Shape := ⟨3, ![1, 384, 512]⟩
abbrev S1x512x384 : Shape := ⟨3, ![1, 512, 384]⟩
abbrev S1x512x1024 : Shape := ⟨3, ![1, 512, 1024]⟩
abbrev S1x1024x512 : Shape := ⟨3, ![1, 1024, 512]⟩
abbrev S384x512 : Shape := ⟨2, ![384, 512]⟩
abbrev S512x384 : Shape := ⟨2, ![512, 384]⟩
abbrev S512 : Shape := ⟨1, ![512]⟩
abbrev S512x1 : Shape := ⟨2, ![512, 1]⟩
abbrev S512x1024 : Shape := ⟨2, ![512, 1024]⟩
abbrev S1024x512 : Shape := ⟨2, ![1024, 512]⟩
abbrev S16x56x56x384 : Shape := ⟨4, ![16, 56, 56, 384]⟩
abbrev S16x1024x56x56 : Shape := ⟨4, ![16, 1024, 56, 56]⟩
abbrev S50176x1024 : Shape := ⟨2, ![50176, 1024]⟩

abbrev nBuf : Space → Nat
  | .hbm => 16
  | .vmem => 12
  | .smem => 0
  | _ => 0

abbrev bufTy : (tb : Table) → Fin (tcTables nBuf tb) → BufTy
  | .hbm, ⟨0, _⟩ => ⟨S16x384x56x56, .f32⟩
  | .hbm, ⟨1, _⟩ => ⟨S1024x384, .f32⟩
  | .hbm, ⟨2, _⟩ => ⟨S16x384x3136, .f32⟩
  | .hbm, ⟨3, _⟩ => ⟨S1024x384, .bf16⟩
  | .hbm, ⟨4, _⟩ => ⟨S1024x384, .f32⟩
  | .hbm, ⟨5, _⟩ => ⟨S_, .f32⟩
  | .hbm, ⟨6, _⟩ => ⟨S1024, .f32⟩
  | .hbm, ⟨7, _⟩ => ⟨S1x1024, .f32⟩
  | .hbm, ⟨8, _⟩ => ⟨S16x3136x384, .f32⟩
  | .hbm, ⟨9, _⟩ => ⟨S16x3136x1024, .f32⟩
  | .hbm, ⟨10, _⟩ => ⟨S16x1024x3136, .f32⟩
  | .hbm, ⟨11, _⟩ => ⟨S16x384x3136, .f32⟩
  | .hbm, ⟨12, _⟩ => ⟨S16x56x56x384, .f32⟩
  | .hbm, ⟨13, _⟩ => ⟨S16x384x56x56, .f32⟩
  | .hbm, ⟨14, _⟩ => ⟨S16x1024x56x56, .f32⟩
  | .hbm, ⟨15, _⟩ => ⟨S50176x1024, .f32⟩
  | .local _ .vmem, ⟨0, _⟩ => ⟨S1x384x512, .f32⟩
  | .local _ .vmem, ⟨1, _⟩ => ⟨S1x384x512, .f32⟩
  | .local _ .vmem, ⟨2, _⟩ => ⟨S1024x384, .bf16⟩
  | .local _ .vmem, ⟨3, _⟩ => ⟨S1x1024, .f32⟩
  | .local _ .vmem, ⟨4, _⟩ => ⟨S1x512x384, .f32⟩
  | .local _ .vmem, ⟨5, _⟩ => ⟨S1x512x384, .f32⟩
  | .local _ .vmem, ⟨6, _⟩ => ⟨S1x512x1024, .f32⟩
  | .local _ .vmem, ⟨7, _⟩ => ⟨S1x512x1024, .f32⟩
  | .local _ .vmem, ⟨8, _⟩ => ⟨S1x1024x512, .f32⟩
  | .local _ .vmem, ⟨9, _⟩ => ⟨S1x1024x512, .f32⟩
  | .local _ .vmem, ⟨10, _⟩ => ⟨S1x384x512, .f32⟩
  | .local _ .vmem, ⟨11, _⟩ => ⟨S1x384x512, .f32⟩
  | _, _ => ⟨S16x384x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_v5_2 : Ref sig .tc := ⟨.hbm, 10, rfl⟩
abbrev main_v5_3 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 7], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x384x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x384 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x384 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x384x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S16x384x56x56_S16x384x3136 : S16x384x56x56.ShapeCasts S16x384x3136
  bitsLt_bf16_f32 : FTy.bits .bf16 < FTy.bits .f32
  reducesTo_S1024x384_S1024_d1 : S1024x384.ReducesTo [1] S1024
  h_S_ : 0 < S_.numel
  shapeCasts_S1024_S1x1024 : S1024.ShapeCasts S1x1024
  inb_S1x384x512_S1x384x512_0_0_0 : ∀ a, (![0, 0, 0] : Fin 3 → Nat) a + S1x384x512.size a ≤ S1x384x512.size a
  h_S1x384x512 : 0 < S1x384x512.numel
  shapeCasts_S1x384x512_S384x512 : S1x384x512.ShapeCasts S384x512
  transposes_S384x512_p1_0_S512x384 : S384x512.Transposes [1, 0] S512x384
  inb_S1x512x384_S1x512x384_0_0_0 : ∀ a, (![0, 0, 0] : Fin 3 → Nat) a + S1x512x384.size a ≤ S1x512x384.size a
  h_S1x512x384 : 0 < S1x512x384.numel
  shapeCasts_S1x512x384_S512x384 : S1x512x384.ShapeCasts S512x384
  shapeCasts_S512x384_S1x512x384 : S512x384.ShapeCasts S1x512x384
  inb_S1024x384_S1024x384_0_0 : ∀ a, (![0, 0] : Fin 2 → Nat) a + S1024x384.size a ≤ S1024x384.size a
  h_S1024x384 : 0 < S1024x384.numel
  shapeCasts_S1024x384_S1024x384 : S1024x384.ShapeCasts S1024x384
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S512x384_S512 : S512x384.Reduces [1] S512
  shapeCasts_S512_S512x1 : S512.ShapeCasts S512x1
  broadcasts_S512x1_S512x1024 : S512x1.Broadcasts S512x1024
  broadcasts_S1x1024_S512x1024 : S1x1024.Broadcasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  reduces_S512x1024_S512 : S512x1024.Reduces [1] S512
  transposes_S512x1024_p1_0_S1024x512 : S512x1024.Transposes [1, 0] S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  shapeCasts_S1024x512_S1x1024x512 : S1024x512.ShapeCasts S1x1024x512
  transposes_S512x384_p1_0_S384x512 : S512x384.Transposes [1, 0] S384x512
  shapeCasts_S384x512_S1x384x512 : S384x512.ShapeCasts S1x384x512
  shapeCasts_S16x3136x384_S16x56x56x384 : S16x3136x384.ShapeCasts S16x56x56x384
  shapeCasts_S16x384x3136_S16x384x56x56 : S16x384x3136.ShapeCasts S16x384x56x56
  shapeCasts_S16x1024x3136_S16x1024x56x56 : S16x1024x3136.ShapeCasts S16x1024x56x56
  shapeCasts_S16x3136x1024_S50176x1024 : S16x3136x1024.ShapeCasts S50176x1024
  dot_S512x384_S1024x384_S512x1024_1_1_0_0_n_n_wf : DotDims.WF S512x384 S1024x384 S512x1024 [1] [1] [0] [0] [] []
  dot_S512x1024_S1024x384_S512x384_1_0_0_1_n_n_wf : DotDims.WF S512x1024 S1024x384 S512x384 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S1x384x512.size a < S16x384x3136.size a
  hwx0_0 : ∀ i : grid0.Coords, EltTy.bits .f32 = 32 ∨ (Rect.unit (s := S16x384x3136) (fun a => cc0_transform_0 i a * S1x384x512.size a) (fun a => (Pipeline.Clip.of (cc0_transform_0 i a) (S1x384x512.size a) (S16x384x3136.size a)).extent (S1x384x512.size a)) fun a => Pipeline.Clip.inb (Pipeline.Clip.ok_of (hstart0_0 i a))).WholeWords (EltTy.packing .f32)
  hwxs0_0 : ∀ i : grid0.Coords, EltTy.bits .f32 = 32 ∨ (Rect.unit (s := S1x384x512) (fun _ => 0) (fun a => (Pipeline.Clip.of (cc0_transform_0 i a) (S1x384x512.size a) (S16x384x3136.size a)).extent (S1x384x512.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x384.size a ≤ S1024x384.size a
  hwx0_1 : ∀ i : grid0.Coords, EltTy.bits .bf16 = 32 ∨ (Rect.block (s := S1024x384) S1024x384.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1x512x384.size a < S16x3136x384.size a
  hwx0_3 : ∀ i : grid0.Coords, EltTy.bits .f32 = 32 ∨ (Rect.unit (s := S16x3136x384) (fun a => cc0_transform_3 i a * S1x512x384.size a) (fun a => (Pipeline.Clip.of (cc0_transform_3 i a) (S1x512x384.size a) (S16x3136x384.size a)).extent (S1x512x384.size a)) fun a => Pipeline.Clip.inb (Pipeline.Clip.ok_of (hstart0_3 i a))).WholeWords (EltTy.packing .f32)
  hwxs0_3 : ∀ i : grid0.Coords, EltTy.bits .f32 = 32 ∨ (Rect.unit (s := S1x512x384) (fun _ => 0) (fun a => (Pipeline.Clip.of (cc0_transform_3 i a) (S1x512x384.size a) (S16x3136x384.size a)).extent (S1x512x384.size a)) fun a => (Nat.zero_add _).trans_le (Pipeline.Clip.extent_le (Pipeline.Clip.ok_of (hstart0_3 i a)))).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hstart0_4 : ∀ (i : grid0.Coords) a, cc0_transform_4 i a * S1x512x1024.size a < S16x3136x1024.size a
  hwx0_4 : ∀ i : grid0.Coords, EltTy.bits .f32 = 32 ∨ (Rect.unit (s := S16x3136x1024) (fun a => cc0_transform_4 i a * S1x512x1024.size a) (fun a => (Pipeline.Clip.of (cc0_transform_4 i a) (S1x512x1024.size a) (S16x3136x1024.size a)).extent (S1x512x1024.size a)) fun a => Pipeline.Clip.inb (Pipeline.Clip.ok_of (hstart0_4 i a))).WholeWords (EltTy.packing .f32)
  hwxs0_4 : ∀ i : grid0.Coords, EltTy.bits .f32 = 32 ∨ (Rect.unit (s := S1x512x1024) (fun _ => 0) (fun a => (Pipeline.Clip.of (cc0_transform_4 i a) (S1x512x1024.size a) (S16x3136x1024.size a)).extent (S1x512x1024.size a)) fun a => (Nat.zero_add _).trans_le (Pipeline.Clip.extent_le (Pipeline.Clip.ok_of (hstart0_4 i a)))).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hstart0_5 : ∀ (i : grid0.Coords) a, cc0_transform_5 i a * S1x1024x512.size a < S16x1024x3136.size a
  hwx0_5 : ∀ i : grid0.Coords, EltTy.bits .f32 = 32 ∨ (Rect.unit (s := S16x1024x3136) (fun a => cc0_transform_5 i a * S1x1024x512.size a) (fun a => (Pipeline.Clip.of (cc0_transform_5 i a) (S1x1024x512.size a) (S16x1024x3136.size a)).extent (S1x1024x512.size a)) fun a => Pipeline.Clip.inb (Pipeline.Clip.ok_of (hstart0_5 i a))).WholeWords (EltTy.packing .f32)
  hwxs0_5 : ∀ i : grid0.Coords, EltTy.bits .f32 = 32 ∨ (Rect.unit (s := S1x1024x512) (fun _ => 0) (fun a => (Pipeline.Clip.of (cc0_transform_5 i a) (S1x1024x512.size a) (S16x1024x3136.size a)).extent (S1x1024x512.size a)) fun a => (Nat.zero_add _).trans_le (Pipeline.Clip.extent_le (Pipeline.Clip.ok_of (hstart0_5 i a)))).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hstart0_6 : ∀ (i : grid0.Coords) a, cc0_transform_6 i a * S1x384x512.size a < S16x384x3136.size a
  hwx0_6 : ∀ i : grid0.Coords, EltTy.bits .f32 = 32 ∨ (Rect.unit (s := S16x384x3136) (fun a => cc0_transform_6 i a * S1x384x512.size a) (fun a => (Pipeline.Clip.of (cc0_transform_6 i a) (S1x384x512.size a) (S16x384x3136.size a)).extent (S1x384x512.size a)) fun a => Pipeline.Clip.inb (Pipeline.Clip.ok_of (hstart0_6 i a))).WholeWords (EltTy.packing .f32)
  hwxs0_6 : ∀ i : grid0.Coords, EltTy.bits .f32 = 32 ∨ (Rect.unit (s := S1x384x512) (fun _ => 0) (fun a => (Pipeline.Clip.of (cc0_transform_6 i a) (S1x384x512.size a) (S16x384x3136.size a)).extent (S1x384x512.size a)) fun a => (Nat.zero_add _).trans_le (Pipeline.Clip.extent_le (Pipeline.Clip.ok_of (hstart0_6 i a)))).WholeWords (EltTy.packing .f32)

variable [Facts₀]

def dot_S512x384_S1024x384_S512x1024_1_1_0_0_n_n : DotDims S512x384 S1024x384 S512x1024 where
  lhsContracting := [1]
  rhsContracting := [1]
  lhsNonContracting := [0]
  rhsNonContracting := [0]
  lhsBatch := []
  rhsBatch := []
  wf := dot_S512x384_S1024x384_S512x1024_1_1_0_0_n_n_wf
def dot_S512x1024_S1024x384_S512x384_1_0_0_1_n_n : DotDims S512x1024 S1024x384 S512x384 where
  lhsContracting := [1]
  rhsContracting := [0]
  lhsNonContracting := [0]
  rhsNonContracting := [1]
  lhsBatch := []
  rhsBatch := []
  wf := dot_S512x1024_S1024x384_S512x384_1_0_0_1_n_n_wf

abbrev win0_0 : Pipeline.Window sig grid0 :=
  Pipeline.Window.ofSpecClip (Memref.whole main_v0) S1x384x512.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v1) S1024x384.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v5_0) S1x512x384.size cc0_transform_3 reads0_3 true false 2 stage0_3 sem0_3
    hrank0 hreads0_3 hstart0_3 nbuf0_3 (Memref.isWhole_whole _) hwx0_3 hwxs0_3 hstage0_3

abbrev win0_4 : Pipeline.Window sig grid0 :=
  Pipeline.Window.ofSpecClip (Memref.whole main_v5_1) S1x512x1024.size cc0_transform_4 reads0_4 true false 2 stage0_4 sem0_4
    hrank0 hreads0_4 hstart0_4 nbuf0_4 (Memref.isWhole_whole _) hwx0_4 hwxs0_4 hstage0_4

abbrev win0_5 : Pipeline.Window sig grid0 :=
  Pipeline.Window.ofSpecClip (Memref.whole main_v5_2) S1x1024x512.size cc0_transform_5 reads0_5 true false 2 stage0_5 sem0_5
    hrank0 hreads0_5 hstart0_5 nbuf0_5 (Memref.isWhole_whole _) hwx0_5 hwxs0_5 hstage0_5

abbrev win0_6 : Pipeline.Window sig grid0 :=
  Pipeline.Window.ofSpecClip (Memref.whole main_v5_3) S1x384x512.size cc0_transform_6 reads0_6 true false 2 stage0_6 sem0_6
    hrank0 hreads0_6 hstart0_6 nbuf0_6 (Memref.isWhole_whole _) hwx0_6 hwxs0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16x384x56x56 : Shape := ⟨4, ![16, 384, 56, 56]⟩
abbrev S1024x384 : Shape := ⟨2, ![1024, 384]⟩
abbrev S16x56x56x384 : Shape := ⟨4, ![16, 56, 56, 384]⟩
abbrev S50176x384 : Shape := ⟨2, ![50176, 384]⟩
abbrev S_ : Shape := ⟨0, ![]⟩
abbrev S50176 : Shape := ⟨1, ![50176]⟩
abbrev S50176x1 : Shape := ⟨2, ![50176, 1]⟩
abbrev S1024 : Shape := ⟨1, ![1024]⟩
abbrev S1x1024 : Shape := ⟨2, ![1, 1024]⟩
abbrev S50176x1024 : Shape := ⟨2, ![50176, 1024]⟩
abbrev S384x1024 : Shape := ⟨2, ![384, 1024]⟩
abbrev S16x56x56x1024 : Shape := ⟨4, ![16, 56, 56, 1024]⟩
abbrev S16x1024x56x56 : Shape := ⟨4, ![16, 1024, 56, 56]⟩

abbrev nBuf : Space → Nat
  | .hbm => 42
  | .vmem => 0
  | .smem => 0
  | _ => 0

abbrev bufTy : (tb : Table) → Fin (tcTables nBuf tb) → BufTy
  | .hbm, ⟨0, _⟩ => ⟨S16x384x56x56, .f32⟩
  | .hbm, ⟨1, _⟩ => ⟨S1024x384, .f32⟩
  | .hbm, ⟨2, _⟩ => ⟨S16x56x56x384, .f32⟩
  | .hbm, ⟨3, _⟩ => ⟨S50176x384, .f32⟩
  | .hbm, ⟨4, _⟩ => ⟨S50176x384, .f32⟩
  | .hbm, ⟨5, _⟩ => ⟨S_, .f32⟩
  | .hbm, ⟨6, _⟩ => ⟨S50176, .f32⟩
  | .hbm, ⟨7, _⟩ => ⟨S50176x1, .f32⟩
  | .hbm, ⟨8, _⟩ => ⟨S1024x384, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S50176x1024, .f32⟩
  | .hbm, ⟨13, _⟩ => ⟨S50176x1024, .f32⟩
  | .hbm, ⟨14, _⟩ => ⟨S50176x1024, .f32⟩
  | .hbm, ⟨15, _⟩ => ⟨S384x1024, .f32⟩
  | .hbm, ⟨16, _⟩ => ⟨S50176x1024, .f32⟩
  | .hbm, ⟨17, _⟩ => ⟨S_, .f32⟩
  | .hbm, ⟨18, _⟩ => ⟨S50176x1024, .f32⟩
  | .hbm, ⟨19, _⟩ => ⟨S50176x1024, .f32⟩
  | .hbm, ⟨20, _⟩ => ⟨S50176x1024, .f32⟩
  | .hbm, ⟨21, _⟩ => ⟨S50176x1024, .f32⟩
  | .hbm, ⟨22, _⟩ => ⟨S_, .f32⟩
  | .hbm, ⟨23, _⟩ => ⟨S50176, .f32⟩
  | .hbm, ⟨24, _⟩ => ⟨S_, .f32⟩
  | .hbm, ⟨25, _⟩ => ⟨S50176, .f32⟩
  | .hbm, ⟨26, _⟩ => ⟨S50176, .f32⟩
  | .hbm, ⟨27, _⟩ => ⟨S50176x1, .f32⟩
  | .hbm, ⟨28, _⟩ => ⟨S50176x1024, .f32⟩
  | .hbm, ⟨29, _⟩ => ⟨S50176x1024, .f32⟩
  | .hbm, ⟨30, _⟩ => ⟨S50176x1024, .f32⟩
  | .hbm, ⟨31, _⟩ => ⟨S_, .f32⟩
  | .hbm, ⟨32, _⟩ => ⟨S50176, .f32⟩
  | .hbm, ⟨33, _⟩ => ⟨S50176x1, .f32⟩
  | .hbm, ⟨34, _⟩ => ⟨S50176x1024, .f32⟩
  | .hbm, ⟨35, _⟩ => ⟨S50176x1024, .f32⟩
  | .hbm, ⟨36, _⟩ => ⟨S50176x384, .f32⟩
  | .hbm, ⟨37, _⟩ => ⟨S16x56x56x384, .f32⟩
  | .hbm, ⟨38, _⟩ => ⟨S16x384x56x56, .f32⟩
  | .hbm, ⟨39, _⟩ => ⟨S16x56x56x1024, .f32⟩
  | .hbm, ⟨40, _⟩ => ⟨S16x1024x56x56, .f32⟩
  | .hbm, ⟨41, _⟩ => ⟨S16x56x56x384, .f32⟩
  | _, _ => ⟨S16x384x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_4 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩

abbrev nD : Nat := 1
abbrev τ : Topo := Topo.v7x

variable {F : FTy → Type} [FloatOps F]

class Facts₀ : Prop where
  transposes_S16x384x56x56_S16x56x56x384_0_2_3_1 : S16x384x56x56.Transposes [0, 2, 3, 1] S16x56x56x384
  shapeCasts_S16x56x56x384_S50176x384 : S16x56x56x384.ShapeCasts S50176x384
  reducesTo_S50176x384_S50176_d1 : S50176x384.ReducesTo [1] S50176
  h_S_ : 0 < S_.numel
  bcast_S50176_S50176x1_0 : S50176.BroadcastsInDim S50176x1 (![0] : Fin 1 → Fin S50176x1.rank)
  reducesTo_S1024x384_S1024_d1 : S1024x384.ReducesTo [1] S1024
  bcast_S1024_S1x1024_1 : S1024.BroadcastsInDim S1x1024 (![1] : Fin 1 → Fin S1x1024.rank)
  bcast_S50176x1_S50176x1024_0_1 : S50176x1.BroadcastsInDim S50176x1024 (![0, 1] : Fin 2 → Fin S50176x1024.rank)
  bcast_S1x1024_S50176x1024_0_1 : S1x1024.BroadcastsInDim S50176x1024 (![0, 1] : Fin 2 → Fin S50176x1024.rank)
  transposes_S1024x384_S384x1024_1_0 : S1024x384.Transposes [1, 0] S384x1024
  bcast_S_S50176x1024 : S_.BroadcastsInDim S50176x1024 (![] : Fin 0 → Fin S50176x1024.rank)
  reducesTo_S50176x1024_S50176_d1 : S50176x1024.ReducesTo [1] S50176
  bcast_S_S50176 : S_.BroadcastsInDim S50176 (![] : Fin 0 → Fin S50176.rank)
  shapeCasts_S50176x384_S16x56x56x384 : S50176x384.ShapeCasts S16x56x56x384
  transposes_S16x56x56x384_S16x384x56x56_0_3_1_2 : S16x56x56x384.Transposes [0, 3, 1, 2] S16x384x56x56
  shapeCasts_S50176x1024_S16x56x56x1024 : S50176x1024.ShapeCasts S16x56x56x1024
  transposes_S16x56x56x1024_S16x1024x56x56_0_3_1_2 : S16x56x56x1024.Transposes [0, 3, 1, 2] S16x1024x56x56
  dot_S50176x384_S384x1024_S50176x1024_1_0_0_1_n_n_wf : DotDims.WF S50176x384 S384x1024 S50176x1024 [1] [0] [0] [1] [] []
  dot_S50176x1024_S1024x384_S50176x384_1_0_0_1_n_n_wf : DotDims.WF S50176x1024 S1024x384 S50176x384 [1] [0] [0] [1] [] []

variable [Facts₀]

def dot_S50176x384_S384x1024_S50176x1024_1_0_0_1_n_n : DotDims S50176x384 S384x1024 S50176x1024 where
  lhsContracting := [1]
  rhsContracting := [0]
  lhsNonContracting := [0]
  rhsNonContracting := [1]
  lhsBatch := []
  rhsBatch := []
  wf := dot_S50176x384_S384x1024_S50176x1024_1_0_0_1_n_n_wf
def dot_S50176x1024_S1024x384_S50176x384_1_0_0_1_n_n : DotDims S50176x1024 S1024x384 S50176x384 where
  lhsContracting := [1]
  rhsContracting := [0]
  lhsNonContracting := [0]
  rhsNonContracting := [1]
  lhsBatch := []
  rhsBatch := []
  wf := dot_S50176x1024_S1024x384_S50176x384_1_0_0_1_n_n_wf

class Facts : Prop extends Facts₀ where

variable [Facts]
-- ==== Proof.TileDataBits.lean ====
/-
  What each staging buffer holds after the kernel body at a grid point (b, j): the feature tile — channels by 512
  positions of image b starting at 512·j, read off the array on the positions inside it and zero past its end —,
  the codebook and its squared norms unchanged, and the body's four stores as functions of those three:
  the tile transposed, the distances, the soft assignment transposed, the lookup transposed.
-/
import proofs.«415149_j87600152969629_3_alg».proof.Proof.Gen.Kernel.Frame
import proofs.«415149_j87600152969629_3_alg».proof.Proof.Gen.Kernel.Skeleton

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- The feature tile at point `t`: the block's part inside the array, zero on the positions past the array's end. -/
def xtile (c : Dev nD) (t : Fin cfg0.N) : Vec F S1x384x512 .f32 :=
  win0_0.fill (grid0.coords t) (fun _ => Scalar.ofBits .f32 0#32) (iblk m c 0 t)

/-- The codebook and its squared norms as the body finds them at every point. -/
abbrev wblk (c : Dev nD) (t : Fin cfg0.N) : Vec F S1024x384 .bf16 := iblk m c 1 t
abbrev sblk (c : Dev nD) (t : Fin cfg0.N) : Vec F S1x1024 .f32 := iblk m c 2 t

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => xtile m c t
    | ⟨1, _⟩ => iblk m c 1 t
    | ⟨2, _⟩ => iblk m c 2 t
    | ⟨3, _⟩ => k0_pay4 (xtile m c t)
    | ⟨4, _⟩ => k0_pay7 (xtile m c t) (wblk m c t) (sblk m c t)
    | ⟨5, _⟩ => k0_pay1 (k0_pay9 (xtile m c t) (wblk m c t) (sblk m c t))
    | ⟨6, _⟩ => k0_pay2 (k0_pay5 (wblk m c t)) (k0_pay8 (xtile m c t) (wblk m c t) (sblk m c t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xtile m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay4 (xtile m c t) := by dsimp only [dats]
theorem after_4 (c : Dev nD) (t : Fin cfg0.N) :
    (dats m 0 c).after 4 t = k0_pay7 (xtile m c t) (wblk m c t) (sblk m c t) := by dsimp only [dats]
theorem after_5 (c : Dev nD) (t : Fin cfg0.N) :
    (dats m 0 c).after 5 t = k0_pay1 (k0_pay9 (xtile m c t) (wblk m c t) (sblk m c t)) := by dsimp only [dats]
theorem after_6 (c : Dev nD) (t : Fin cfg0.N) :
    (dats m 0 c).after 6 t = k0_pay2 (k0_pay5 (wblk m c t)) (k0_pay8 (xtile m c t) (wblk m c t) (sblk m c t)) := by
  dsimp only [dats]

end Cert.Kernel.Tile

end
-- ==== Proof.BodyRunBits.lean ====
/-
  The kernel body run once on whole staging buffers: it reads the feature tile, the codebook and the squared
  norms, leaves those three as they were, and leaves in the four result buffers the four stored values — the
  tile transposed, the distances, the soft assignment transposed and the lookup transposed — whatever the
  result buffers held before.
-/
import proofs.«415149_j87600152969629_3_alg».proof.Proof.Gen.Kernel.Launch
import proofs.«415149_j87600152969629_3_alg».proof.Proof.Gen.Kernel.Skeleton
import proofs.«415149_j87600152969629_3_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One store through the whole-buffer rectangle at zero offsets, read back, is its payload, whatever the
    buffer held before: the one piece covers every index, and the canonical contents of one covering piece
    are that piece's payload. -/
private theorem read_store_whole {S : Shape} {e : EltTy} (v : View sig .tc .vmem S e) (f : v.ty.Contents (Elt F))
    {off : Fin S.rank → Nat} (hz : off = fun _ => 0) (inb : ∀ a, off a + S.size a ≤ S.size a)
    (w : S.Idx → Elt F e) :
    v.read (Elt F) (v.writes (Elt F) f [(⟨Rect.unit off S.size inb, w⟩ : View.Piece (Elt F) S e)]) = w :=
  (View.read_writes_eq_canon v f _
      (fun y => ⟨_, List.mem_singleton_self _, View.mem_set_unit_zero hz inb y⟩)).trans
    (View.canon_unit_zero hz inb w)

theorem body_run (c : Dev nD) (E : Set ℕ) (i : grid0.Coords) (arg2 : Memref sig .tc .vmem S1x384x512 .f32) (harg2 : arg2.IsWhole) (arg3 : Memref sig .tc .vmem S1024x384 .bf16) (harg3 : arg3.IsWhole) (arg4 : Memref sig .tc .vmem S1x1024 .f32) (harg4 : arg4.IsWhole) (arg5 : Memref sig .tc .vmem S1x512x384 .f32) (harg5 : arg5.IsWhole) (arg6 : Memref sig .tc .vmem S1x512x1024 .f32) (harg6 : arg6.IsWhole) (arg7 : Memref sig .tc .vmem S1x1024x512 .f32) (harg7 : arg7.IsWhole) (arg8 : Memref sig .tc .vmem S1x384x512 .f32) (harg8 : arg8.IsWhole)
    (x0 : Vec F S1x384x512 .f32) (x1 : Vec F S1024x384 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (k0_pay4 x0)
              ∗ owns (c : Thread nD τ) arg6 fullShare (k0_pay7 x0 x1 x2)
              ∗ owns (c : Thread nD τ) arg7 fullShare (k0_pay1 (k0_pay9 x0 x1 x2))
              ∗ owns (c : Thread nD τ) arg8 fullShare (k0_pay2 (k0_pay5 x1) (k0_pay8 x0 x1 x2))) -∗ K ⟨⟩))
      ⊢ wp frame (wpE (defs₀ (F := F)) Variants.none c none) E
          (cc0__vq_kernel i arg2 harg2 arg3 harg3 arg4 harg4 arg5 harg5 arg6 harg6 arg7 harg7 arg8 harg8) K := by
  have hz3 : (![0, 0, 0] : Fin 3 → Nat) = fun _ => 0 := by funext a; fin_cases a <;> rfl
  have hz2 : (![0, 0] : Fin 2 → Nat) = fun _ => 0 := by funext a; fin_cases a <;> rfl
  simp only [cc0__vq_kernel_eq_skeleton]; unfold cc0__vq_kernel_skel
  simp only [k0_part1_eq_skeleton]; unfold k0_part1_skel
  unfold owns
  iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
  subst hf0 hf1 hf2
  -- a load through the whole-buffer rectangle reads the buffer's contents
  have e0 : View.readAt (Elt F) arg2.view (Rect.unit (s := S1x384x512) ![0, 0, 0] S1x384x512.size inb_S1x384x512_S1x384x512_0_0_0).toLoadRect f0
      = View.read (Elt F) arg2.view f0 := View.ld_unit_zero (S := S1x384x512) hz3 _ (View.read (Elt F) arg2.view f0)
  have e1 : View.readAt (Elt F) arg3.view (Rect.unit (s := S1024x384) ![0, 0] S1024x384.size inb_S1024x384_S1024x384_0_0).toLoadRect f1
      = View.read (Elt F) arg3.view f1 := View.ld_unit_zero (S := S1024x384) hz2 _ (View.read (Elt F) arg3.view f1)
  have e2 : View.readAt (Elt F) arg4.view (Rect.unit (s := S1x1024) ![0, 0] S1x1024.size inb_S1x1024_S1x1024_0_0).toLoadRect f2
      = View.read (Elt F) arg4.view f2 := View.ld_unit_zero (S := S1x1024) hz2 _ (View.read (Elt F) arg4.view f2)
  sl_exec
  sl_step
  iapply Hk
  -- the three inputs are only read: each is left holding what it held
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- each result buffer receives exactly one store, through its whole rectangle: read back it is that store's
  -- payload, a function of the three inputs' contents alone (the earlier load of the buffer is not used)
  isplitl [H5]
  · iexists _; isplitr
    swap; · iexact H5
    ipureintro
    refine (read_store_whole (S := S1x512x384) arg5.view _ hz3 _ _).trans ?_
    simp only [e0, e1, e2]
  isplitl [H6]
  · iexists _; isplitr
    swap; · iexact H6
    ipureintro
    refine (read_store_whole (S := S1x512x1024) arg6.view _ hz3 _ _).trans ?_
    simp only [e0, e1, e2]
  isplitl [H7]
  · iexists _; isplitr
    swap; · iexact H7
    ipureintro
    refine (read_store_whole (S := S1x1024x512) arg7.view _ hz3 _ _).trans ?_
    simp only [e0, e1, e2]
  · iexists _; isplitr
    swap; · iexact H8
    ipureintro
    refine (read_store_whole (S := S1x384x512) arg8.view _ hz3 _ _).trans ?_
    simp only [e0, e1, e2]

end Cert.Kernel.Tile

end
-- ==== Proof.BitsFrame.lean ====
/-
  The printed kernel at the word level runs to the end and leaves its arguments as they were. Nothing is said of
  what it stores: at this instance a matrix product is one function of its whole operands, so the unnamed values
  past the array's end in the last tile of each image may reach any stored row; the four result buffers are
  therefore handed to the body and taken back at contents nothing names, and only the three operand buffers are
  followed.
-/
import proofs.«415149_j87600152969629_3_alg».proof.Proof.TileDataBits
import proofs.«415149_j87600152969629_3_alg».proof.Proof.BodyRunBits

set_option maxRecDepth 16384

noncomputable section

open scoped BigOperators

namespace Cert.Kernel.Tile

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (m : (ℓ : Loc nD τ sig) → Buf (Elt F) ℓ) (ρ : Dev nD → PrngReg)

/-- The four result windows: what the body stores in them is a function of the whole feature tile, its unnamed
    tail included, so nothing is said of their contents. -/
def fgt : Fin cfg0.W → Bool
  | ⟨0, _⟩ => false
  | ⟨1, _⟩ => false
  | ⟨2, _⟩ => false
  | ⟨3, _⟩ => true
  | ⟨4, _⟩ => true
  | ⟨5, _⟩ => true
  | ⟨6, _⟩ => true

/-- The feature window's buffer as the body finds it: the tile's part inside the array, any values past its end. -/
theorem before_0 (c : Dev nD) (t : Fin cfg0.N) (d) :
    (dats m 0 c).before 0 t d = win0_0.fill (grid0.coords t) d (iblk m c 0 t) := by
  unfold Dat.before; rw [if_pos (fetch0_0 t)]; rfl

/-- The codebook's and the norms' buffers hold their whole arrays at every point. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- The named tile and the tile the body found agree on the positions inside the array. -/
theorem cut_after_0 (c : Dev nD) (t : Fin cfg0.N) :
    win0_0.cut (grid0.coords t) ((dats m 0 c).after 0 t) = iblk m c 0 t := by
  rw [after_0]; exact win0_0.cut_fill _ _ _

/-- The body at every point: the three operand buffers come back as they were found — the feature tile's still
    agreeing with the array on the positions inside it —, the four result buffers at some contents. -/
theorem body_obligation (c : Dev nD) :
    BodyObligationLoose (dats (F := F) m 0 c) (defs₀ (F := F)) Variants.none () Set.univ fgt := fun t => by
  rw [bigSep_W0, bigSep_W0]
  simp only [fgt]
  rw [show (dats m 0 c).Φ t.succ = (dats m 0 c).Φ t.castSucc from rfl,
    show (dats m 0 c).owesAt () t.succ = (dats m 0 c).owesAt () t.castSucc from rfl,
    after_1 m c t, after_2 m c t]
  iintro ⟨HΦ, Ho, ⟨%d0, H0⟩, ⟨%d1, H1⟩, ⟨%d2, H2⟩, H3, H4, H5, H6⟩
  rw [before_0 m c t d0, before_1 m c t d1, before_2 m c t d2]
  iapply (body_run (F := F) c Set.univ (grid0.coords t) _ _ _ _ _ _ _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]
  · iexists d0
    change _ ⊢ owns (c : Thread nD τ) (stage0_0 (cfg0.slots t 0)) fullShare
      (win0_0.fill (grid0.coords t) d0 (win0_0.cut (grid0.coords t) ((dats m 0 c).after 0 t)))
    rw [cut_after_0 m c t]
  isplitl [H1]; · iexact H1
  isplitl [H2]; · iexact H2
  isplitl [H3]; · iexists _; iexact H3
  isplitl [H4]; · iexists _; iexact H4
  isplitl [H5]; · iexists _; iexact H5
  iexists _; iexact H6

/-- The buffers the host lines after the region write. -/
def T0 : Finset (Ref sig .tc) := {main_v6, main_v7, main_v8, main_v9}

/-- Each line after the region writes its own result buffer, one of those four. -/
theorem sfx_writes : ∀ ops ∈ ([hostOps1] : List (List (HloOp τ sig (Elt F)))), ∀ op ∈ ops,
    ∀ b : Ref sig .tc, Proc.devRef .tc b ∈ op.writes → b ∈ T0 := by
  intro ops hops op hop b hb
  simp only [List.mem_cons, List.mem_nil_iff, or_false] at hops
  subst hops
  simp only [hostOps1, List.mem_cons, List.mem_nil_iff, or_false] at hop
  rcases hop with rfl | rfl | rfl | rfl <;>
    (simp only [StableHlo.reshape_writes, Finset.mem_singleton] at hb
     cases Proc.devRef_injective _ hb
     decide)

/-- Every weakly fair execution of the program terminates; at the end each windowed array holds contents its window's
    relation allows, and every other buffer that is not one of the four the later lines write holds what it held when
    the region was entered. -/
theorem run_main : θ_run defs (onTc (τ := τ) (main (F := F))) (s₀ m ρ)
    (Pipeline.RDat.FramePostR cfg0 (fun c => (dats m 0 c).toRForget fgt) T0 (V m)) :=
  Pipeline.RDat.θ_run_frame_around_T cfgs (0 : Fin 1) launch0 defs₀ Variants.none (fun c => (dats m 0 c).toRForget fgt) T0 m ρ main
    (hbody := fun c => (body_obligation m c).toRForget)
    (hshare := fun c => ((dats m 0 c).toRForget fgt).share_full fun _ => rfl)
    (howed := fun _ _ => rfl) (V₀ := V0 m) (opss := [hostOps1]) (hsub := sfx_sub) (hfresh := sfx_fresh) (hkeep := sfx_keeps)
    (hT := sfx_writes) (hmain := hmain m Variants.none) (hA := A_eq m) (hΦ := fun _ _ => rfl)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans
        (V_main_arg0 m c),
      ((h c).2 main_arg1 (Finset.mem_sdiff.mpr ⟨Pipeline.mem_restRefs_of main_arg1 (by decide) (by decide), by decide⟩)).trans
        (V_main_arg1 m c)⟩) (run_main m ρ)

end Cert.Kernel.Tile

end
-- ==== Proof.TileData.lean ====
/-
  What each staging buffer holds after the kernel body at a grid point (b, j): the feature tile — channels by 512
  positions of image b starting at 512·j, read off the array on the positions inside it and zero past its end —,
  the codebook and its squared norms unchanged, and the body's four stores as functions of those three:
  the tile transposed, the distances, the soft assignment transposed, the lookup transposed.
-/
import proofs.«415149_j87600152969629_3_alg».proof.Proof.Gen.KernelIdeal.Frame
import proofs.«415149_j87600152969629_3_alg».proof.Proof.Gen.KernelIdeal.Skeleton

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (m : (ℓ : Loc nD τ sig) → Buf (Elt F) ℓ)

/-- The feature tile at point `t`: the block's part inside the array, zero on the positions past the array's end. -/
def xtile (c : Dev nD) (t : Fin cfg0.N) : Vec F S1x384x512 .f32 :=
  win0_0.fill (grid0.coords t) (fun _ => Scalar.ofBits .f32 0#32) (iblk m c 0 t)

/-- The codebook and its squared norms as the body finds them at every point. -/
abbrev wblk (c : Dev nD) (t : Fin cfg0.N) : Vec F S1024x384 .bf16 := iblk m c 1 t
abbrev sblk (c : Dev nD) (t : Fin cfg0.N) : Vec F S1x1024 .f32 := iblk m c 2 t

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => xtile m c t
    | ⟨1, _⟩ => iblk m c 1 t
    | ⟨2, _⟩ => iblk m c 2 t
    | ⟨3, _⟩ => k0_pay4 (xtile m c t)
    | ⟨4, _⟩ => k0_pay7 (xtile m c t) (wblk m c t) (sblk m c t)
    | ⟨5, _⟩ => k0_pay1 (k0_pay9 (xtile m c t) (wblk m c t) (sblk m c t))
    | ⟨6, _⟩ => k0_pay2 (k0_pay5 (wblk m c t)) (k0_pay8 (xtile m c t) (wblk m c t) (sblk m c t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = xtile m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = k0_pay4 (xtile m c t) := by dsimp only [dats]
theorem after_4 (c : Dev nD) (t : Fin cfg0.N) :
    (dats m 0 c).after 4 t = k0_pay7 (xtile m c t) (wblk m c t) (sblk m c t) := by dsimp only [dats]
theorem after_5 (c : Dev nD) (t : Fin cfg0.N) :
    (dats m 0 c).after 5 t = k0_pay1 (k0_pay9 (xtile m c t) (wblk m c t) (sblk m c t)) := by dsimp only [dats]
theorem after_6 (c : Dev nD) (t : Fin cfg0.N) :
    (dats m 0 c).after 6 t = k0_pay2 (k0_pay5 (wblk m c t)) (k0_pay8 (xtile m c t) (wblk m c t) (sblk m c t)) := by
  dsimp only [dats]

end Cert.KernelIdeal.Tile

end
-- ==== Proof.BodyRun.lean ====
/-
  The kernel body run once on whole staging buffers: it reads the feature tile, the codebook and the squared
  norms, leaves those three as they were, and leaves in the four result buffers the four stored values — the
  tile transposed, the distances, the soft assignment transposed and the lookup transposed — whatever the
  result buffers held before.
-/
import proofs.«415149_j87600152969629_3_alg».proof.Proof.Gen.KernelIdeal.Launch
import proofs.«415149_j87600152969629_3_alg».proof.Proof.Gen.KernelIdeal.Skeleton
import proofs.«415149_j87600152969629_3_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- One store through the whole-buffer rectangle at zero offsets, read back, is its payload, whatever the
    buffer held before: the one piece covers every index, and the canonical contents of one covering piece
    are that piece's payload. -/
private theorem read_store_whole {S : Shape} {e : EltTy} (v : View sig .tc .vmem S e) (f : v.ty.Contents (Elt F))
    {off : Fin S.rank → Nat} (hz : off = fun _ => 0) (inb : ∀ a, off a + S.size a ≤ S.size a)
    (w : S.Idx → Elt F e) :
    v.read (Elt F) (v.writes (Elt F) f [(⟨Rect.unit off S.size inb, w⟩ : View.Piece (Elt F) S e)]) = w :=
  (View.read_writes_eq_canon v f _
      (fun y => ⟨_, List.mem_singleton_self _, View.mem_set_unit_zero hz inb y⟩)).trans
    (View.canon_unit_zero hz inb w)

theorem body_run (c : Dev nD) (E : Set ℕ) (i : grid0.Coords) (arg2 : Memref sig .tc .vmem S1x384x512 .f32) (harg2 : arg2.IsWhole) (arg3 : Memref sig .tc .vmem S1024x384 .bf16) (harg3 : arg3.IsWhole) (arg4 : Memref sig .tc .vmem S1x1024 .f32) (harg4 : arg4.IsWhole) (arg5 : Memref sig .tc .vmem S1x512x384 .f32) (harg5 : arg5.IsWhole) (arg6 : Memref sig .tc .vmem S1x512x1024 .f32) (harg6 : arg6.IsWhole) (arg7 : Memref sig .tc .vmem S1x1024x512 .f32) (harg7 : arg7.IsWhole) (arg8 : Memref sig .tc .vmem S1x384x512 .f32) (harg8 : arg8.IsWhole)
    (x0 : Vec F S1x384x512 .f32) (x1 : Vec F S1024x384 .bf16) (x2 : Vec F S1x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d) ∗ (∃ d, owns (c : Thread nD τ) arg6 fullShare d)
        ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
              ∗ owns (c : Thread nD τ) arg5 fullShare (k0_pay4 x0)
              ∗ owns (c : Thread nD τ) arg6 fullShare (k0_pay7 x0 x1 x2)
              ∗ owns (c : Thread nD τ) arg7 fullShare (k0_pay1 (k0_pay9 x0 x1 x2))
              ∗ owns (c : Thread nD τ) arg8 fullShare (k0_pay2 (k0_pay5 x1) (k0_pay8 x0 x1 x2))) -∗ K ⟨⟩))
      ⊢ wp frame (wpE (defs₀ (F := F)) Variants.none c none) E
          (cc0__vq_kernel i arg2 harg2 arg3 harg3 arg4 harg4 arg5 harg5 arg6 harg6 arg7 harg7 arg8 harg8) K := by
  have hz3 : (![0, 0, 0] : Fin 3 → Nat) = fun _ => 0 := by funext a; fin_cases a <;> rfl
  have hz2 : (![0, 0] : Fin 2 → Nat) = fun _ => 0 := by funext a; fin_cases a <;> rfl
  simp only [cc0__vq_kernel_eq_skeleton]; unfold cc0__vq_kernel_skel
  simp only [k0_part1_eq_skeleton]; unfold k0_part1_skel
  unfold owns
  iintro ⟨⟨%f0, %hf0, H0⟩, ⟨%f1, %hf1, H1⟩, ⟨%f2, %hf2, H2⟩, ⟨%d5, %f5, -, H5⟩, ⟨%d6, %f6, -, H6⟩, ⟨%d7, %f7, -, H7⟩, ⟨%d8, %f8, -, H8⟩, Hk⟩
  subst hf0 hf1 hf2
  -- a load through the whole-buffer rectangle reads the buffer's contents
  have e0 : View.readAt (Elt F) arg2.view (Rect.unit (s := S1x384x512) ![0, 0, 0] S1x384x512.size inb_S1x384x512_S1x384x512_0_0_0).toLoadRect f0
      = View.read (Elt F) arg2.view f0 := View.ld_unit_zero (S := S1x384x512) hz3 _ (View.read (Elt F) arg2.view f0)
  have e1 : View.readAt (Elt F) arg3.view (Rect.unit (s := S1024x384) ![0, 0] S1024x384.size inb_S1024x384_S1024x384_0_0).toLoadRect f1
      = View.read (Elt F) arg3.view f1 := View.ld_unit_zero (S := S1024x384) hz2 _ (View.read (Elt F) arg3.view f1)
  have e2 : View.readAt (Elt F) arg4.view (Rect.unit (s := S1x1024) ![0, 0] S1x1024.size inb_S1x1024_S1x1024_0_0).toLoadRect f2
      = View.read (Elt F) arg4.view f2 := View.ld_unit_zero (S := S1x1024) hz2 _ (View.read (Elt F) arg4.view f2)
  sl_exec
  sl_step
  iapply Hk
  -- the three inputs are only read: each is left holding what it held
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  -- each result buffer receives exactly one store, through its whole rectangle: read back it is that store's
  -- payload, a function of the three inputs' contents alone (the earlier load of the buffer is not used)
  isplitl [H5]
  · iexists _; isplitr
    swap; · iexact H5
    ipureintro
    refine (read_store_whole (S := S1x512x384) arg5.view _ hz3 _ _).trans ?_
    simp only [e0, e1, e2]
  isplitl [H6]
  · iexists _; isplitr
    swap; · iexact H6
    ipureintro
    refine (read_store_whole (S := S1x512x1024) arg6.view _ hz3 _ _).trans ?_
    simp only [e0, e1, e2]
  isplitl [H7]
  · iexists _; isplitr
    swap; · iexact H7
    ipureintro
    refine (read_store_whole (S := S1x1024x512) arg7.view _ hz3 _ _).trans ?_
    simp only [e0, e1, e2]
  · iexists _; isplitr
    swap; · iexact H8
    ipureintro
    refine (read_store_whole (S := S1x384x512) arg8.view _ hz3 _ _).trans ?_
    simp only [e0, e1, e2]

end Cert.KernelIdeal.Tile

end
-- ==== Proof.RowMath.lean ====
/-
  One spatial position of the feature map is a row x of 384 channels. Against a codebook w of 1024 codes with
  squared norms s, this file states what both programs compute from that one row, in plain extended-real
  arithmetic: the squared distance to each code, (Σ x² + s k) − 2 · Σ x · w k; the soft assignment, the
  exponentials of the negated distances shifted by their maximum, divided by their sum; and the lookup, the
  assignment-weighted sum of the codes. Every result element of either program is one of these at one row.
-/
import Idealize.ShloMosaic.PureOps.Ideal
import Idealize.ShloMosaic.Lib.ValueIdx

noncomputable section

open scoped BigOperators

namespace Cert.VQ

open Idealize.ShloMosaic Idealize.ShloMosaic.ValueIdx

/-- The factor 2 of the cross term and the starting value −∞ of the row maximum, as the programs write them. -/
abbrev two : EReal := Ideal.ofBits .f32 0x40000000#32
abbrev bottom : EReal := Ideal.ofBits .f32 0xFF800000#32

section Row
variable (x : Fin 384 → EReal) (w : Fin 1024 → Fin 384 → EReal) (s : Fin 1024 → EReal)

/-- The squared distance of the row to code `k`. -/
def dist (k : Fin 1024) : EReal := ((∑ c : Fin 384, x c * x c) + s k) - two * ∑ c : Fin 384, x c * w k c

/-- The largest negated distance over the codes. -/
def top : EReal := (Finset.univ : Finset (Fin 1024)).fold max bottom (fun k => -dist x w s k)

/-- The shifted exponential of code `k`. -/
def ew (k : Fin 1024) : EReal := Ideal.exp (-dist x w s k - top x w s)

/-- The soft assignment of the row to code `k`. -/
def soft (k : Fin 1024) : EReal := Ideal.div (ew x w s k) (∑ k' : Fin 1024, ew x w s k')

/-- Channel `c` of the assignment-weighted codebook lookup. -/
def look (c : Fin 384) : EReal := ∑ k : Fin 1024, soft x w s k * w k c

end Row

/-! ## The four result arrays, from the feature map and the codebook -/

section Results
variable (feat : (⟨4, ![16, 384, 56, 56]⟩ : Shape).Idx → EReal) (wt : (⟨2, ![1024, 384]⟩ : Shape).Idx → EReal)

/-- The channels at image `b`, position (`h`, `v`). -/
def pix (b : Fin 16) (h v : Fin 56) : Fin 384 → EReal := fun c => feat (ix4 b c h v)
/-- The codebook by code and channel. -/
def codes : Fin 1024 → Fin 384 → EReal := fun k c => wt (ix2 k c)
/-- Each code's squared norm. -/
def norms : Fin 1024 → EReal := fun k => ∑ c : Fin 384, wt (ix2 k c) * wt (ix2 k c)

/-- The feature map with channels last. -/
def chanLast : (⟨4, ![16, 56, 56, 384]⟩ : Shape).Idx → EReal := fun i => feat (ix4 (i 0) (i 3) (i 1) (i 2))
/-- The lookup, channels second. -/
def lookMap : (⟨4, ![16, 384, 56, 56]⟩ : Shape).Idx → EReal :=
  fun i => look (pix feat (i 0) (i 2) (i 3)) (codes wt) (norms wt) (i 1)
/-- The soft assignment, codes second. -/
def softMap : (⟨4, ![16, 1024, 56, 56]⟩ : Shape).Idx → EReal :=
  fun i => soft (pix feat (i 0) (i 2) (i 3)) (codes wt) (norms wt) (i 1)
/-- The image, row and column of flat position `n`. -/
def posB (n : Fin 50176) : Fin 16 := ⟨n.val / 3136, by have := n.isLt; omega⟩
def posH (n : Fin 50176) : Fin 56 := ⟨n.val / 56 % 56, Nat.mod_lt _ (by decide)⟩
def posV (n : Fin 50176) : Fin 56 := ⟨n.val % 56, Nat.mod_lt _ (by decide)⟩
/-- The distances, one row per flat position. -/
def distMap : (⟨2, ![50176, 1024]⟩ : Shape).Idx → EReal :=
  fun i => dist (pix feat (posB (i 0)) (posH (i 0)) (posV (i 0))) (codes wt) (norms wt) (i 1)

end Results

end Cert.VQ

end
-- ==== Proof.PayDist.lean ====
/-
  The body's first two stored values read at one element, at the extended reals. Row r of the transposed tile is
  the 384 channels of position r; the distance block at (r, k) is the squared distance of that row to code k.
-/
import proofs.«415149_j87600152969629_3_alg».proof.Proof.Gen.KernelIdeal.Skeleton
import proofs.«415149_j87600152969629_3_alg».proof.Proof.RowMath
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Cert.KernelIdeal Cert.KernelIdeal.Gen Cert.VQ
open Idealize.ShloMosaic Idealize.ShloMosaic.ValueIdx

/-- Position `r` of a tile: its 384 channels. -/
def trow (X : Vec Ideal S1x384x512 .f32) (r : Fin 512) : Fin 384 → EReal := fun ch => X (ix3 (0 : Fin 1) ch r)
/-- The staged codebook by code and channel, and the staged squared norms by code. -/
def tcodes (W : Vec Ideal S1024x384 .bf16) : Fin 1024 → Fin 384 → EReal := fun k ch => W (ix2 k ch)
def tnorms (S : Vec Ideal S1x1024 .f32) : Fin 1024 → EReal := fun k => S (ix2 (0 : Fin 1) k)

/-! ## A column of row values: kept as a unit trailing axis, then spread over the columns -/

section Column
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Column

/-- The transposed tile at (position, channel) is the tile at (channel, position), at any float instance. -/
theorem pay3_apply {F : FTy → Type} [FloatOps F] (X : Vec F S1x384x512 .f32) (r : Fin 512) (ch : Fin 384) :
    k0_pay3 X (ix2 r ch) = X (ix3 (0 : Fin 1) ch r) :=
  (transpose_ix2_apply (shapeCast S384x512 X shapeCasts_S1x384x512_S384x512) transposes_S384x512_p1_0_S512x384 r ch).trans
    (shapeCast_1ab_ab_apply X shapeCasts_S1x384x512_S384x512 ch r)

theorem pay4_apply {F : FTy → Type} [FloatOps F] (X : Vec F S1x384x512 .f32) (r : Fin 512) (ch : Fin 384) :
    k0_pay4 X (ix3 (0 : Fin 1) r ch) = X (ix3 (0 : Fin 1) ch r) :=
  (shapeCast_ab_1ab_apply (k0_pay3 X) shapeCasts_S512x384_S1x512x384 (0 : Fin 1) r ch).trans (pay3_apply X r ch)

/-! ## The row sum of squares, the spread column and row, and the matrix product, each read at (position, code) -/

/-- A row sum of a [512, 384] block at row `r`: the sum over the 384 columns. -/
theorem rowsum_apply (v : FVec Ideal S512x384 .f32) (r : Fin 512) :
    multiReduction (F := Ideal) .add [1] S512 v 0x00000000#32 reduces_S512x384_S512 (.inl rfl) rfl (ix1 r)
      = ∑ c : Fin 384, v (ix2 r c) := by
  refine (Ideal.multiReduction_add_single v 0x00000000#32 reduces_S512x384_S512 (.inl rfl) rfl (ix1 r)).trans ?_
  refine Finset.sum_congr rfl fun c _ => congrArg v ?_
  funext a
  match a with
  | ⟨0, _⟩ => rfl
  | ⟨1, _⟩ => rfl

/-- A value per row, kept as a [512, 1] column and spread over the 1024 columns, reads the row's value. -/
theorem col_apply (v : FVec Ideal S512 .f32) (r : Fin 512) (k : Fin 1024) :
    broadcastTo S512x1024 (shapeCast S512x1 v shapeCasts_S512_S512x1) broadcasts_S512x1_S512x1024 (ix2 r k) = v (ix1 r) :=
  (broadcastTo_a1_ab_apply (shapeCast S512x1 v shapeCasts_S512_S512x1) broadcasts_S512x1_S512x1024 r k).trans
    (shapeCast_a_a1_apply v shapeCasts_S512_S512x1 r (0 : Fin 1))

/-- The [1, 1024] row spread over the 512 rows reads the row at the column. -/
theorem row_apply (S : FVec Ideal S1x1024 .f32) (r : Fin 512) (k : Fin 1024) :
    broadcastTo S512x1024 (shapeCast S1x1024 S shapeCasts_S1x1024_S1x1024) broadcasts_S1x1024_S512x1024 (ix2 r k)
      = S (ix2 (0 : Fin 1) k) := by
  rw [shapeCast_self]
  exact broadcastTo_1b_ab_apply S broadcasts_S1x1024_S512x1024 r k

/-- The product's operand indices, axis by axis: the left operand is read at (row, contraction), the right at
    (column, contraction). -/
theorem lhs_cross_0 (i : S512x1024.Idx) (q : dot_S512x384_S1024x384_S512x1024_1_1_0_0_n_n.contr.Idx) :
    (dot_S512x384_S1024x384_S512x1024_1_1_0_0_n_n.lhsIdx i q 0).val = (i 0).val := by
  unfold DotDims.lhsIdx
  rw [dif_neg (show ¬(0 : Fin S512x384.rank) ∈ dot_S512x384_S1024x384_S512x1024_1_1_0_0_n_n.lhsBatch by decide), dif_pos (show (0 : Fin S512x384.rank) ∈ dot_S512x384_S1024x384_S512x1024_1_1_0_0_n_n.lhsNonContracting by decide)]
  rfl
theorem lhs_cross_1 (i : S512x1024.Idx) (q : dot_S512x384_S1024x384_S512x1024_1_1_0_0_n_n.contr.Idx) :
    (dot_S512x384_S1024x384_S512x1024_1_1_0_0_n_n.lhsIdx i q 1).val = (q ⟨0, by decide⟩).val :=
  dot_S512x384_S1024x384_S512x1024_1_1_0_0_n_n.lhsIdx_val_of_single rfl i q
theorem rhs_cross_0 (i : S512x1024.Idx) (q : dot_S512x384_S1024x384_S512x1024_1_1_0_0_n_n.contr.Idx) :
    (dot_S512x384_S1024x384_S512x1024_1_1_0_0_n_n.rhsIdx i q 0).val = (i 1).val := by
  unfold DotDims.rhsIdx
  rw [dif_neg (show ¬(0 : Fin S1024x384.rank) ∈ dot_S512x384_S1024x384_S512x1024_1_1_0_0_n_n.rhsBatch by decide), dif_pos (show (0 : Fin S1024x384.rank) ∈ dot_S512x384_S1024x384_S512x1024_1_1_0_0_n_n.rhsNonContracting by decide)]
  rfl
theorem rhs_cross_1 (i : S512x1024.Idx) (q : dot_S512x384_S1024x384_S512x1024_1_1_0_0_n_n.contr.Idx) :
    (dot_S512x384_S1024x384_S512x1024_1_1_0_0_n_n.rhsIdx i q 1).val = (q ⟨0, by decide⟩).val :=
  dot_S512x384_S1024x384_S512x1024_1_1_0_0_n_n.rhsIdx_val_of_single rfl i q

/-- The product of a [512, 384] block with a [1024, 384] block over their 384 columns, from zero, at (r, k): the sum over
    the columns of the products. -/
theorem cross_apply (A : FVec Ideal S512x384 .bf16) (B : FVec Ideal S1024x384 .bf16) (r : Fin 512) (k : Fin 1024) :
    matmul (F := Ideal) dot_S512x384_S1024x384_S512x1024_1_1_0_0_n_n none A B (constant (F := Ideal) S512x1024 .f32 0x00000000#32) (ix2 r k)
      = ∑ c : Fin 384, A (ix2 r c) * B (ix2 k c) := by
  simp only [matmul]
  rw [Ideal.matmul_constant_zero_apply, ← Equiv.sum_comp (ValueIdx.contrEquiv1 dot_S512x384_S1024x384_S512x1024_1_1_0_0_n_n 384 rfl rfl).symm]
  refine Finset.sum_congr rfl fun c _ => ?_
  have hk := ValueIdx.contrEquiv1_symm_val dot_S512x384_S1024x384_S512x1024_1_1_0_0_n_n 384 rfl rfl c
  have el : dot_S512x384_S1024x384_S512x1024_1_1_0_0_n_n.lhsIdx (ix2 r k) ((ValueIdx.contrEquiv1 dot_S512x384_S1024x384_S512x1024_1_1_0_0_n_n 384 rfl rfl).symm c) = ix2 r c := funext fun a => Fin.ext (by
    match a with
    | ⟨0, _⟩ => exact lhs_cross_0 _ _
    | ⟨1, _⟩ => exact (lhs_cross_1 _ _).trans hk)
  have er : dot_S512x384_S1024x384_S512x1024_1_1_0_0_n_n.rhsIdx (ix2 r k) ((ValueIdx.contrEquiv1 dot_S512x384_S1024x384_S512x1024_1_1_0_0_n_n 384 rfl rfl).symm c) = ix2 k c := funext fun a => Fin.ext (by
    match a with
    | ⟨0, _⟩ => exact rhs_cross_0 _ _
    | ⟨1, _⟩ => exact (rhs_cross_1 _ _).trans hk)
  rw [el, er]

/-- The distance block at (position, code). -/
theorem pay6_apply (X : Vec Ideal S1x384x512 .f32) (W : Vec Ideal S1024x384 .bf16) (S : Vec Ideal S1x1024 .f32)
    (r : Fin 512) (k : Fin 1024) :
    k0_pay6 (F := Ideal) X W S (ix2 r k) = dist (trow X r) (tcodes W) (tnorms S) k := by
  unfold k0_pay6 Cert.VQ.dist trow tcodes tnorms
  simp only [subf_apply, addf_apply, mulf_apply, broadcast_apply]
  refine congrArg₂ (· - ·) (congrArg₂ (· + ·) ?_ ?_) (congrArg₂ (· * ·) rfl ?_)
  · -- the row's sum of squares
    refine (col_apply _ r k).trans ((rowsum_apply _ r).trans (Finset.sum_congr rfl fun c _ => ?_))
    rw [mulf_apply, pay3_apply]
  · -- the code's squared norm
    exact row_apply S r k
  · -- the row's product with the code
    refine (cross_apply _ _ r k).trans (Finset.sum_congr rfl fun c _ => ?_)
    rw [truncf_apply, pay3_apply]
    unfold k0_pay5
    rw [shapeCast_self]

theorem pay7_apply (X : Vec Ideal S1x384x512 .f32) (W : Vec Ideal S1024x384 .bf16) (S : Vec Ideal S1x1024 .f32)
    (r : Fin 512) (k : Fin 1024) :
    k0_pay7 (F := Ideal) X W S (ix3 (0 : Fin 1) r k) = dist (trow X r) (tcodes W) (tnorms S) k :=
  (shapeCast_ab_1ab_apply (k0_pay6 (F := Ideal) X W S) shapeCasts_S512x1024_S1x512x1024 (0 : Fin 1) r k).trans (pay6_apply X W S r k)

end Cert.KernelIdeal.Tile

end
-- ==== Proof.PaySoft.lean ====
/-
  The body's last two stored values read at one element, at the extended reals: the assignment block at
  (code, position) is the soft assignment of that position's row to the code, and the lookup block at
  (channel, position) is that row's assignment-weighted sum of the codes' channel.
-/
import proofs.«415149_j87600152969629_3_alg».proof.Proof.PayDist

noncomputable section

open scoped BigOperators

namespace Cert.KernelIdeal.Tile

open Cert.KernelIdeal Cert.KernelIdeal.Gen Cert.VQ
open Idealize.ShloMosaic Idealize.ShloMosaic.ValueIdx

/-! ## A column kept as a unit axis, then spread over a row -/

/-- A per-row value kept as a column and spread over the 1024 codes reads, at `(r, k)`, the value of row `r`. -/
private theorem column_apply {α : Type} (v : S512.Idx → α) (h₁ : S512.ShapeCasts S512x1) (h₂ : S512x1.Broadcasts S512x1024)
    (r : Fin 512) (k : Fin 1024) :
    broadcastTo S512x1024 (shapeCast S512x1 v h₁) h₂ (ix2 r k) = v (ix1 r) :=
  (broadcastTo_a1_ab_apply _ h₂ r k).trans (shapeCast_a_a1_apply v h₁ r 0)

/-! ## A row's maximum and a row's sum -/

/-- Row `r` with the code's coordinate put back is the index `(r, k)`. -/
private theorem lift_row (h : S512x1024.Reduces [1] S512) (r : Fin 512) (k : Fin 1024) :
    h.lift (ix1 r) k = ix2 r k :=
  funext fun a => Fin.ext (by match a with | ⟨0, _⟩ => rfl | ⟨1, _⟩ => rfl)

/-- The maximum over the codes of a `[512, 1024]` block, at row `r`: the fold of `max` from −∞ over that row. -/
private theorem rowMax_apply (v : FVec Ideal S512x1024 .f32) (h : S512x1024.Reduces [1] S512) (hφ : FKind.Formats .f32)
    (hacc : @Eq (BitVec (FTy.bits .f32)) 0xFF800000#32 0xFF800000#32) (r : Fin 512) :
    multiReduction (F := Ideal) .maximumf [1] S512 v 0xFF800000#32 h hφ hacc (ix1 r)
      = (Finset.univ : Finset (Fin 1024)).fold max bottom (fun k => v (ix2 r k)) := by
  refine (Ideal.multiReduction_maximumf_single v _ h hφ hacc (ix1 r)).trans ?_
  show (Finset.univ : Finset (Fin 1024)).fold max bottom (v ∘ h.lift (ix1 r)) = _
  exact congrArg (fun f => (Finset.univ : Finset (Fin 1024)).fold max bottom f) (funext fun k => congrArg v (lift_row h r k))

/-- The sum over the codes of a `[512, 1024]` block, at row `r`. -/
private theorem rowSum_apply (v : FVec Ideal S512x1024 .f32) (h : S512x1024.Reduces [1] S512) (hφ : FKind.Formats .f32)
    (hacc : @Eq (BitVec (FTy.bits .f32)) 0x00000000#32 0x00000000#32) (r : Fin 512) :
    multiReduction (F := Ideal) .add [1] S512 v 0x00000000#32 h hφ hacc (ix1 r) = ∑ k : Fin 1024, v (ix2 r k) := by
  refine (Ideal.multiReduction_add_single v _ h hφ hacc (ix1 r)).trans ?_
  show ∑ k : Fin 1024, v (h.lift (ix1 r) k) = _
  exact Finset.sum_congr rfl fun k _ => congrArg v (lift_row h r k)

/-- An exponential at an index is the exponential of the element. -/
private theorem exp_apply {s : Shape} {φ : FTy} (a : FVec Ideal s φ) (i : s.Idx) : exp a i = Ideal.exp (a i) := rfl

/-- The soft assignment before it is transposed, at (position, code). -/
theorem pay8_apply (X : Vec Ideal S1x384x512 .f32) (W : Vec Ideal S1024x384 .bf16) (S : Vec Ideal S1x1024 .f32)
    (r : Fin 512) (k : Fin 1024) :
    k0_pay8 (F := Ideal) X W S (ix2 r k) = soft (trow X r) (tcodes W) (tnorms S) k := by
  have hD : ∀ k', k0_pay6 (F := Ideal) X W S (ix2 r k') = dist (trow X r) (tcodes W) (tnorms S) k' :=
    fun k' => pay6_apply X W S r k'
  unfold k0_pay8
  generalize k0_pay6 (F := Ideal) X W S = D at hD ⊢
  simp only [divf_apply, exp_apply, subf_apply, broadcast_apply, column_apply]
  rw [rowSum_apply]
  simp only [exp_apply, subf_apply, broadcast_apply, column_apply]
  rw [rowMax_apply]
  simp only [subf_apply, broadcast_apply, Ideal.ofBits_def, Ideal.ofBits_zero_f32, zero_sub, hD]
  rfl

theorem pay19_apply (X : Vec Ideal S1x384x512 .f32) (W : Vec Ideal S1024x384 .bf16) (S : Vec Ideal S1x1024 .f32)
    (k : Fin 1024) (r : Fin 512) :
    k0_pay1 (k0_pay9 (F := Ideal) X W S) (ix3 (0 : Fin 1) k r) = soft (trow X r) (tcodes W) (tnorms S) k := by
  unfold k0_pay1 k0_pay9
  exact (shapeCast_ab_1ab_apply _ _ 0 k r).trans ((transpose_ix2_apply _ _ k r).trans (pay8_apply X W S r k))

/-! ## The product of the assignment block with the codebook, at an index -/

private theorem lhs_look_0 (i : S512x384.Idx) (q : dot_S512x1024_S1024x384_S512x384_1_0_0_1_n_n.contr.Idx) :
    (dot_S512x1024_S1024x384_S512x384_1_0_0_1_n_n.lhsIdx i q 0).val = (i 0).val := by
  unfold DotDims.lhsIdx
  rw [dif_neg (show ¬(0 : Fin S512x1024.rank) ∈ dot_S512x1024_S1024x384_S512x384_1_0_0_1_n_n.lhsBatch by decide), dif_pos (show (0 : Fin S512x1024.rank) ∈ dot_S512x1024_S1024x384_S512x384_1_0_0_1_n_n.lhsNonContracting by decide)]
  rfl
private theorem lhs_look_1 (i : S512x384.Idx) (q : dot_S512x1024_S1024x384_S512x384_1_0_0_1_n_n.contr.Idx) :
    (dot_S512x1024_S1024x384_S512x384_1_0_0_1_n_n.lhsIdx i q 1).val = (q ⟨0, by decide⟩).val :=
  dot_S512x1024_S1024x384_S512x384_1_0_0_1_n_n.lhsIdx_val_of_single rfl i q
private theorem rhs_look_0 (i : S512x384.Idx) (q : dot_S512x1024_S1024x384_S512x384_1_0_0_1_n_n.contr.Idx) :
    (dot_S512x1024_S1024x384_S512x384_1_0_0_1_n_n.rhsIdx i q 0).val = (q ⟨0, by decide⟩).val :=
  dot_S512x1024_S1024x384_S512x384_1_0_0_1_n_n.rhsIdx_val_of_single rfl i q
private theorem rhs_look_1 (i : S512x384.Idx) (q : dot_S512x1024_S1024x384_S512x384_1_0_0_1_n_n.contr.Idx) :
    (dot_S512x1024_S1024x384_S512x384_1_0_0_1_n_n.rhsIdx i q 1).val = (i 1).val := by
  unfold DotDims.rhsIdx
  rw [dif_neg (show ¬(1 : Fin S1024x384.rank) ∈ dot_S512x1024_S1024x384_S512x384_1_0_0_1_n_n.rhsBatch by decide), dif_pos (show (1 : Fin S1024x384.rank) ∈ dot_S512x1024_S1024x384_S512x384_1_0_0_1_n_n.rhsNonContracting by decide)]
  rfl

/-- A `[512, 1024]` block times a `[1024, 384]` block, into zero, at (position, channel): the sum over the 1024 codes. -/
private theorem lookMatmul_apply (A : FVec Ideal S512x1024 .bf16) (B : FVec Ideal S1024x384 .bf16) (r : Fin 512) (ch : Fin 384) :
    matmul dot_S512x1024_S1024x384_S512x384_1_0_0_1_n_n none A B (constant (F := Ideal) S512x384 .f32 0x00000000#32) (ix2 r ch)
      = ∑ k : Fin 1024, A (ix2 r k) * B (ix2 k ch) := by
  simp only [matmul]
  rw [Ideal.matmul_constant_zero_apply, ← Equiv.sum_comp (contrEquiv1 dot_S512x1024_S1024x384_S512x384_1_0_0_1_n_n 1024 rfl rfl).symm]
  refine Finset.sum_congr rfl fun k _ => ?_
  have hk := contrEquiv1_symm_val dot_S512x1024_S1024x384_S512x384_1_0_0_1_n_n 1024 rfl rfl k
  have el : dot_S512x1024_S1024x384_S512x384_1_0_0_1_n_n.lhsIdx (ix2 r ch) ((contrEquiv1 dot_S512x1024_S1024x384_S512x384_1_0_0_1_n_n 1024 rfl rfl).symm k) = ix2 r k := funext fun a => Fin.ext (by
    match a with
    | ⟨0, _⟩ => exact lhs_look_0 _ _
    | ⟨1, _⟩ => exact (lhs_look_1 _ _).trans hk)
  have er : dot_S512x1024_S1024x384_S512x384_1_0_0_1_n_n.rhsIdx (ix2 r ch) ((contrEquiv1 dot_S512x1024_S1024x384_S512x384_1_0_0_1_n_n 1024 rfl rfl).symm k) = ix2 k ch := funext fun a => Fin.ext (by
    match a with
    | ⟨0, _⟩ => exact (rhs_look_0 _ _).trans hk
    | ⟨1, _⟩ => exact rhs_look_1 _ _)
  rw [el, er]

theorem pay2_apply (X : Vec Ideal S1x384x512 .f32) (W : Vec Ideal S1024x384 .bf16) (S : Vec Ideal S1x1024 .f32)
    (ch : Fin 384) (r : Fin 512) :
    k0_pay2 (k0_pay5 W) (k0_pay8 (F := Ideal) X W S) (ix3 (0 : Fin 1) ch r) = look (trow X r) (tcodes W) (tnorms S) ch := by
  unfold k0_pay2 k0_pay5
  refine (shapeCast_ab_1ab_apply _ _ 0 ch r).trans ((transpose_ix2_apply _ _ ch r).trans ?_)
  refine (lookMatmul_apply _ _ r ch).trans ?_
  unfold look
  refine Finset.sum_congr rfl fun k _ => ?_
  rw [truncf_apply, pay8_apply, shapeCast_self]
  rfl

end Cert.KernelIdeal.Tile

end
-- ==== Proof.TileRun.lean ====
/-
  The idealized kernel's run through its one pipelined region, at the extended reals. At every grid point the
  body finds the feature tile with unnamed values past the array's end; since each stored row depends on the
  tile's matching row only, the stored blocks agree, on the rows that are written back, with the blocks of the
  zero-filled tile, which is all the pipeline asks of a clipped window. So the region and the host lines
  around it run to the end with every result array at what the blocks piece together.
-/
import proofs.«415149_j87600152969629_3_alg».proof.Proof.TileData
import proofs.«415149_j87600152969629_3_alg».proof.Proof.BodyRun
import proofs.«415149_j87600152969629_3_alg».proof.Proof.PaySoft

set_option maxRecDepth 16384

noncomputable section

open scoped BigOperators

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.VQ Idealize.ShloMosaic.ValueIdx

/-! ## The stored rows that are written back do not see the tile's tail -/

/-- The tile's position axis and each result block's position axis are cut alike. -/
theorem xs3 (i : grid0.Coords) : win0_3.xsize i 1 = win0_0.xsize i 2 := rfl
theorem xs4 (i : grid0.Coords) : win0_4.xsize i 1 = win0_0.xsize i 2 := rfl
theorem xs5 (i : grid0.Coords) : win0_5.xsize i 2 = win0_0.xsize i 2 := rfl
theorem xs6 (i : grid0.Coords) : win0_6.xsize i 2 = win0_0.xsize i 2 := rfl

/-- Every channel of a position below the cut is an element the fetch moves. -/
theorem moved_row (i : grid0.Coords) (ch : Fin 384) (r : Fin 512) (hr : r.val < win0_0.xsize i 2) :
    win0_0.moved i (ix3 (0 : Fin 1) ch r) = true := by
  rw [Window.moved_iff]
  intro a
  match a with
  | ⟨0, _⟩ => exact Pipeline.Clip.extent_pos (win0_0.hclip i 0) (show 0 < 1 from Nat.one_pos)
  | ⟨1, _⟩ => exact ch.isLt
  | ⟨2, _⟩ => exact hr

/-- So the row of such a position is the block's row, whatever fills the tile past the array's end. -/
theorem trow_fill (i : grid0.Coords) (d0 d1 : S1x384x512.Idx → Elt Ideal .f32)
    (blk : (win0_0.xblock i).Idx → Elt Ideal .f32) (r : Fin 512) (hr : r.val < win0_0.xsize i 2) :
    trow (win0_0.fill i d0 blk) r = trow (win0_0.fill i d1 blk) r := by
  funext ch
  unfold trow Window.fill
  rw [dif_pos (moved_row i ch r hr), dif_pos (moved_row i ch r hr)]

/-- The transposed tile, on the rows written back. -/
theorem cut3_tail (i : grid0.Coords) (d0 : S1x384x512.Idx → Elt Ideal .f32) (blk : (win0_0.xblock i).Idx → Elt Ideal .f32) :
    win0_3.cut i (k0_pay4 (win0_0.fill i d0 blk))
      = win0_3.cut i (k0_pay4 (win0_0.fill i (fun _ => Scalar.ofBits (F := Ideal) .f32 0#32) blk)) := by
  funext j
  have h1 : (j 1).val < 512 := Nat.lt_of_lt_of_le (j 1).isLt (win0_3.xsize_le i 1)
  have h2 : (j 2).val < 384 := Nat.lt_of_lt_of_le (j 2).isLt (win0_3.xsize_le i 2)
  have e : win0_3.xinj i j = ix3 (0 : Fin 1) (⟨(j 1).val, h1⟩ : Fin 512) (⟨(j 2).val, h2⟩ : Fin 384) := by
    funext a
    match a with
    | ⟨0, _⟩ => exact Fin.ext (Nat.lt_one_iff.mp (Nat.lt_of_lt_of_le (j 0).isLt (win0_3.xsize_le i 0)))
    | ⟨1, _⟩ => rfl
    | ⟨2, _⟩ => rfl
  show k0_pay4 _ (win0_3.xinj i j) = k0_pay4 _ (win0_3.xinj i j)
  rw [e, pay4_apply, pay4_apply]
  exact congrFun (trow_fill i d0 _ blk ⟨(j 1).val, h1⟩ (j 1).isLt) ⟨(j 2).val, h2⟩

/-- The distances, on the rows written back. -/
theorem cut4_tail (i : grid0.Coords) (d0 : S1x384x512.Idx → Elt Ideal .f32) (blk : (win0_0.xblock i).Idx → Elt Ideal .f32)
    (W : Vec Ideal S1024x384 .bf16) (S : Vec Ideal S1x1024 .f32) :
    win0_4.cut i (k0_pay7 (win0_0.fill i d0 blk) W S)
      = win0_4.cut i (k0_pay7 (win0_0.fill i (fun _ => Scalar.ofBits (F := Ideal) .f32 0#32) blk) W S) := by
  funext j
  have h1 : (j 1).val < 512 := Nat.lt_of_lt_of_le (j 1).isLt (win0_4.xsize_le i 1)
  have h2 : (j 2).val < 1024 := Nat.lt_of_lt_of_le (j 2).isLt (win0_4.xsize_le i 2)
  have e : win0_4.xinj i j = ix3 (0 : Fin 1) (⟨(j 1).val, h1⟩ : Fin 512) (⟨(j 2).val, h2⟩ : Fin 1024) := by
    funext a
    match a with
    | ⟨0, _⟩ => exact Fin.ext (Nat.lt_one_iff.mp (Nat.lt_of_lt_of_le (j 0).isLt (win0_4.xsize_le i 0)))
    | ⟨1, _⟩ => rfl
    | ⟨2, _⟩ => rfl
  show k0_pay7 _ W S (win0_4.xinj i j) = k0_pay7 _ W S (win0_4.xinj i j)
  rw [e, pay7_apply, pay7_apply, trow_fill i d0 _ blk ⟨(j 1).val, h1⟩ (j 1).isLt]

/-- The soft assignment transposed, on the columns written back. -/
theorem cut5_tail (i : grid0.Coords) (d0 : S1x384x512.Idx → Elt Ideal .f32) (blk : (win0_0.xblock i).Idx → Elt Ideal .f32)
    (W : Vec Ideal S1024x384 .bf16) (S : Vec Ideal S1x1024 .f32) :
    win0_5.cut i (k0_pay1 (k0_pay9 (win0_0.fill i d0 blk) W S))
      = win0_5.cut i (k0_pay1 (k0_pay9 (win0_0.fill i (fun _ => Scalar.ofBits (F := Ideal) .f32 0#32) blk) W S)) := by
  funext j
  have h1 : (j 1).val < 1024 := Nat.lt_of_lt_of_le (j 1).isLt (win0_5.xsize_le i 1)
  have h2 : (j 2).val < 512 := Nat.lt_of_lt_of_le (j 2).isLt (win0_5.xsize_le i 2)
  have e : win0_5.xinj i j = ix3 (0 : Fin 1) (⟨(j 1).val, h1⟩ : Fin 1024) (⟨(j 2).val, h2⟩ : Fin 512) := by
    funext a
    match a with
    | ⟨0, _⟩ => exact Fin.ext (Nat.lt_one_iff.mp (Nat.lt_of_lt_of_le (j 0).isLt (win0_5.xsize_le i 0)))
    | ⟨1, _⟩ => rfl
    | ⟨2, _⟩ => rfl
  show k0_pay1 (k0_pay9 _ W S) (win0_5.xinj i j) = k0_pay1 (k0_pay9 _ W S) (win0_5.xinj i j)
  rw [e, pay19_apply, pay19_apply, trow_fill i d0 _ blk ⟨(j 2).val, h2⟩ (j 2).isLt]

/-- The lookup transposed, on the columns written back. -/
theorem cut6_tail (i : grid0.Coords) (d0 : S1x384x512.Idx → Elt Ideal .f32) (blk : (win0_0.xblock i).Idx → Elt Ideal .f32)
    (W : Vec Ideal S1024x384 .bf16) (S : Vec Ideal S1x1024 .f32) :
    win0_6.cut i (k0_pay2 (k0_pay5 W) (k0_pay8 (win0_0.fill i d0 blk) W S))
      = win0_6.cut i (k0_pay2 (k0_pay5 W) (k0_pay8 (win0_0.fill i (fun _ => Scalar.ofBits (F := Ideal) .f32 0#32) blk) W S)) := by
  funext j
  have h1 : (j 1).val < 384 := Nat.lt_of_lt_of_le (j 1).isLt (win0_6.xsize_le i 1)
  have h2 : (j 2).val < 512 := Nat.lt_of_lt_of_le (j 2).isLt (win0_6.xsize_le i 2)
  have e : win0_6.xinj i j = ix3 (0 : Fin 1) (⟨(j 1).val, h1⟩ : Fin 384) (⟨(j 2).val, h2⟩ : Fin 512) := by
    funext a
    match a with
    | ⟨0, _⟩ => exact Fin.ext (Nat.lt_one_iff.mp (Nat.lt_of_lt_of_le (j 0).isLt (win0_6.xsize_le i 0)))
    | ⟨1, _⟩ => rfl
    | ⟨2, _⟩ => rfl
  show k0_pay2 (k0_pay5 W) (k0_pay8 _ W S) (win0_6.xinj i j) = k0_pay2 (k0_pay5 W) (k0_pay8 _ W S) (win0_6.xinj i j)
  rw [e, pay2_apply, pay2_apply, trow_fill i d0 _ blk ⟨(j 2).val, h2⟩ (j 2).isLt]

variable (m : (ℓ : Loc nD τ sig) → Buf (Elt Ideal) ℓ) (ρ : Dev nD → PrngReg)

local notation "𝕄" => MT nD τ sig Unit (Elt Ideal) ℕ (UR sig nD τ) ℕ

/-! ## What the body finds -/

/-- The feature tile just fetched: the block on the positions inside the array, unnamed values past its end. -/
theorem before_0 (c : Dev nD) (t : Fin cfg0.N) (d) :
    (dats m 0 c).before 0 t d = win0_0.fill (grid0.coords t) d (iblk m c 0 t) := by
  unfold Dat.before; rw [if_pos (fetch0_0 t)]; rfl
/-- The codebook and its squared norms, fetched once and left in place. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-! ## The body obligation -/

/-- What the body is called with at point `t`: the invariant, what the core owes, and each window's current buffer, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns: the codebook and the norms whole, the tile and the four stored blocks on the part that
    the transfers move. -/
def bodyPost (c : Dev nD) (t : Fin cfg0.N) : sProp 𝕄 :=
  iprop((dats m 0 c).Φ t.succ ∗ (dats m 0 c).owesAt () t.succ
    ∗ (∃ d, owns (c : Thread nD τ) (st0_0 t) fullShare
        (win0_0.fill (grid0.coords t) d (win0_0.cut (grid0.coords t) ((dats m 0 c).after 0 t))))
    ∗ owns (c : Thread nD τ) (st0_1 t) fullShare ((dats m 0 c).after 1 t)
    ∗ owns (c : Thread nD τ) (st0_2 t) fullShare ((dats m 0 c).after 2 t)
    ∗ (∃ d, owns (c : Thread nD τ) (st0_3 t) fullShare
        (win0_3.fill (grid0.coords t) d (win0_3.cut (grid0.coords t) ((dats m 0 c).after 3 t))))
    ∗ (∃ d, owns (c : Thread nD τ) (st0_4 t) fullShare
        (win0_4.fill (grid0.coords t) d (win0_4.cut (grid0.coords t) ((dats m 0 c).after 4 t))))
    ∗ (∃ d, owns (c : Thread nD τ) (st0_5 t) fullShare
        (win0_5.fill (grid0.coords t) d (win0_5.cut (grid0.coords t) ((dats m 0 c).after 5 t))))
    ∗ (∃ d, owns (c : Thread nD τ) (st0_6 t) fullShare
        (win0_6.fill (grid0.coords t) d (win0_6.cut (grid0.coords t) ((dats m 0 c).after 6 t)))))

/-- The body at any point. It finds the tile's block filled out with values `d0` nothing names, and the codebook and
    the norms; it leaves those and its four stores of them. On the part written back the stores are those of the
    zero-filled tile (`cut3_tail` … `cut6_tail`), and the tile's own moved part is the block. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_run c Set.univ (grid0.coords t) _ _ _ _ _ _ _ _ _ _ _ _ _ _
    (win0_0.fill (grid0.coords t) d0 (iblk m c 0 t)) (iblk m c 1 t) (iblk m c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  have e0 : win0_0.fill (grid0.coords t) d0 (win0_0.cut (grid0.coords t) (xtile m c t))
      = win0_0.fill (grid0.coords t) d0 (iblk m c 0 t) :=
    congrArg (win0_0.fill (grid0.coords t) d0) (win0_0.cut_fill _ _ _)
  have e3 := win0_3.fill_congr_cut (grid0.coords t) (cut3_tail (grid0.coords t) d0 (iblk m c 0 t))
  have e4 := win0_4.fill_congr_cut (grid0.coords t) (cut4_tail (grid0.coords t) d0 (iblk m c 0 t) (iblk m c 1 t) (iblk m c 2 t))
  have e5 := win0_5.fill_congr_cut (grid0.coords t) (cut5_tail (grid0.coords t) d0 (iblk m c 0 t) (iblk m c 1 t) (iblk m c 2 t))
  have e6 := win0_6.fill_congr_cut (grid0.coords t) (cut6_tail (grid0.coords t) d0 (iblk m c 0 t) (iblk m c 1 t) (iblk m c 2 t))
  isplitl [H0]
  · iexists d0; rw [e0]; iexact H0
  isplitl [H1]; · iexact H1
  isplitl [H2]; · iexact H2
  isplitl [H3]
  · iexists _; unfold xtile; rw [e3]; iexact H3
  isplitl [H4]
  · iexists _; unfold xtile; rw [e4]; iexact H4
  isplitl [H5]
  · iexists _; unfold xtile; rw [e5]; iexact H5
  · iexists _; unfold xtile; rw [e6]; iexact H6

/-- The library's body obligation, at every point. -/
theorem body_obligation (c : Dev nD) :
    BodyObligationLoose (dats m 0 c) (defs₀ (F := Ideal)) Variants.none () Set.univ := fun t => by
  rw [bigSep_W0, bigSep_W0]
  exact sound_body m c t

/-! ## The run -/

set_option backward.isDefEq.respectTransparency.types false in
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh)
    (hkeep := sfx_keeps) (hmain := hmain m Variants.none) (hA := A_eq m) (hΦ := fun _ _ => rfl)

/-- The idealized kernel runs to the end and leaves its two arguments as they were. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Tile

end
-- ==== Proof.Entry.lean ====
/-
  What the region finds in its three operand arrays, at the extended reals: the feature map with its two spatial
  axes merged into one of 3136 positions, the codebook itself (the change to bf16 is the identity on extended
  reals), and each code's squared norm.
-/
import proofs.«415149_j87600152969629_3_alg».proof.Proof.Gen.KernelIdeal.Frame
import proofs.«415149_j87600152969629_3_alg».proof.Proof.RowMath
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

set_option maxRecDepth 16384

noncomputable section

open scoped BigOperators

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.VQ Idealize.ShloMosaic.ValueIdx

variable (m : (ℓ : Loc nD τ sig) → Buf (Elt Ideal) ℓ)

/-- The two arguments as launched. -/
abbrev featArg (c : Dev nD) : S16x384x56x56.Idx → EReal := m ((c.tc : Thread nD τ).loc main_arg0)
abbrev codeArg (c : Dev nD) : S1024x384.Idx → EReal := m ((c.tc : Thread nD τ).loc main_arg1)

/-- Position `n` of the merged spatial axis is row `n / 56`, column `n % 56`. -/
def rowOf (n : Fin 3136) : Fin 56 := ⟨n.val / 56, by have := n.isLt; omega⟩
def colOf (n : Fin 3136) : Fin 56 := ⟨n.val % 56, Nat.mod_lt _ (by decide)⟩

theorem entry_feat (c : Dev nD) (b : Fin 16) (ch : Fin 384) (n : Fin 3136) :
    (V m c main_v0 : S16x384x3136.Idx → EReal) (ix3 b ch n) = featArg m c (ix4 b ch (rowOf n) (colOf n)) := by
  have e : (V m c main_v0 : S16x384x3136.Idx → EReal) = shapeCast S16x384x3136 (featArg m c) shapeCasts_S16x384x56x56_S16x384x3136 := by
    show StableHlo.after hostOps0 (fun b => m (c, b)) (Proc.devRef .tc main_v0) = _
    after_results
    rfl
  rw [e]
  refine shapeCast_apply _ _ _ _ ?_
  rw [Shape.rowMajor_val_three, Shape.rowMajor_val_four]
  show ((b.val * 384 + ch.val) * 56 + n.val / 56) * 56 + n.val % 56 = (b.val * 384 + ch.val) * 3136 + n.val
  omega

theorem entry_codes (c : Dev nD) (i : S1024x384.Idx) :
    (V m c main_v1 : S1024x384.Idx → EReal) i = codeArg m c i := by
  have e : (V m c main_v1 : S1024x384.Idx → EReal) = (truncf (F := Ideal) .bf16 (codeArg m c : FVec Ideal S1024x384 .f32) bitsLt_bf16_f32 : FVec Ideal S1024x384 .bf16) := by
    show StableHlo.after hostOps0 (fun b => m (c, b)) (Proc.devRef .tc main_v1) = _
    after_results
  rw [e]
  rfl

theorem entry_norms (c : Dev nD) (k : Fin 1024) :
    (V m c main_v4 : S1x1024.Idx → EReal) (ix2 (0 : Fin 1) k) = norms (codeArg m c) k := by
  have e : (V m c main_v4 : S1x1024.Idx → EReal) = shapeCast S1x1024 (Host.reduceAdd (F := Ideal) (mulf (F := Ideal) (codeArg m c : FVec Ideal S1024x384 .f32) (codeArg m c : FVec Ideal S1024x384 .f32)) (constant (F := Ideal) S_ .f32 0x00000000#32) reducesTo_S1024x384_S1024_d1 h_S_) shapeCasts_S1024_S1x1024 := by
    show StableHlo.after hostOps0 (fun b => m (c, b)) (Proc.devRef .tc main_v4) = _
    after_results
    rfl
  rw [e, shapeCast_apply _ _ _ (ix1 k) (by
    rw [Shape.rowMajor_val_one, Shape.rowMajor_val_two]; show k.val = 0 * 1024 + k.val; omega)]
  simp only [Host.reduceAdd, Ideal.hostReduceAdd_def]
  rw [Ideal.hostReduceAdd_single reducesTo_S1024x384_S1024_d1 (by decide)]
  show Ideal.ofBits .f32 0x00000000#32 + _ = _
  rw [Ideal.ofBits_zero_f32, zero_add]
  unfold norms
  refine Finset.sum_congr rfl fun j _ => ?_
  have hi : ∀ i : S1024x384.Idx, (∀ a, (i a).val = (ix2 k j a).val) →
      (mulf (F := Ideal) (φ := .f32) (codeArg m c : FVec Ideal S1024x384 .f32) (codeArg m c : FVec Ideal S1024x384 .f32)) i
        = codeArg m c (ix2 k j) * codeArg m c (ix2 k j) := by
    intro i h
    have : i = ix2 k j := funext fun a => Fin.ext (h a)
    rw [this]; rfl
  exact hi _ (fun a => by match a with | ⟨0, _⟩ => rfl | ⟨1, _⟩ => rfl)

end Cert.KernelIdeal.Tile

end
-- ==== Proof.ArraysRows.lean ====
/-
  The two result arrays whose blocks are 512 positions by all channels or all codes: the channels-last feature
  map and the distances. Block (b, j) of each is rows 512·j … of image b; the blocks inside the array tile it,
  so after the run the array is one function of the arguments; the host lines after the region only re-lay it.
-/
import proofs.«415149_j87600152969629_3_alg».proof.Proof.TileData
import proofs.«415149_j87600152969629_3_alg».proof.Proof.PaySoft
import proofs.«415149_j87600152969629_3_alg».proof.Proof.Entry

set_option maxRecDepth 16384

noncomputable section

open scoped BigOperators

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.VQ Idealize.ShloMosaic.ValueIdx

variable (m : (ℓ : Loc nD τ sig) → Buf (Elt Ideal) ℓ)

/-- The block indices of the feature window and the two result windows over the grid: image first, the tile of
    512 positions on the positions' axis, zero on the full axis. -/
private theorem idx_rows : ∀ t : Fin cfg0.N,
    win0_0.index t (0 : Fin 3) = win0_3.index t (0 : Fin 3) ∧ win0_0.index t (1 : Fin 3) = 0
    ∧ win0_0.index t (2 : Fin 3) = win0_3.index t (1 : Fin 3) ∧ win0_3.index t (2 : Fin 3) = 0
    ∧ win0_4.index t (0 : Fin 3) = win0_3.index t (0 : Fin 3) ∧ win0_4.index t (1 : Fin 3) = win0_3.index t (1 : Fin 3)
    ∧ win0_4.index t (2 : Fin 3) = 0
    ∧ win0_3.index t (0 : Fin 3) ≤ 15 ∧ win0_3.index t (1 : Fin 3) ≤ 6 :=
  (by decide +kernel : ∀ t : Fin grid0.N, _)

/-- The extents the transfers move: everything but on the positions' axis, where the last tile holds 64. -/
private theorem ext_rows : ∀ t : Fin cfg0.N,
    win0_0.xsize (grid0.coords t) (0 : Fin 3) = 1 ∧ win0_0.xsize (grid0.coords t) (1 : Fin 3) = 384
    ∧ win0_0.xsize (grid0.coords t) (2 : Fin 3) = win0_3.xsize (grid0.coords t) (1 : Fin 3)
    ∧ win0_3.xsize (grid0.coords t) (0 : Fin 3) = 1 ∧ win0_3.xsize (grid0.coords t) (2 : Fin 3) = 384
    ∧ win0_4.xsize (grid0.coords t) (0 : Fin 3) = 1
    ∧ win0_4.xsize (grid0.coords t) (1 : Fin 3) = win0_3.xsize (grid0.coords t) (1 : Fin 3)
    ∧ win0_4.xsize (grid0.coords t) (2 : Fin 3) = 1024
    ∧ win0_3.index t (1 : Fin 3) * 512 + win0_3.xsize (grid0.coords t) (1 : Fin 3)
        = min ((win0_3.index t (1 : Fin 3) + 1) * 512) 3136 :=
  (by decide +kernel : ∀ t : Fin grid0.N, _)

/-- Every (image, tile) pair is some point's. -/
private theorem idx_onto_rows : ∀ (q0 : Fin 16) (q1 : Fin 7), ∃ t : Fin cfg0.N,
    win0_3.index t (0 : Fin 3) = q0.val ∧ win0_3.index t (1 : Fin 3) = q1.val :=
  (by decide +kernel : ∀ (q0 : Fin 16) (q1 : Fin 7), ∃ t : Fin grid0.N, _)

/-- The feature tile on a position the fetch moved is the merged feature map at that image, channel and
    position. -/
private theorem xtile_apply (c : Dev nD) (t : Fin cfg0.N) (ch : Fin 384) (r : Fin 512)
    (hr : r.val < win0_0.xsize (grid0.coords t) (2 : Fin 3)) (k : S16x384x3136.Idx)
    (h0 : (k 0).val = win0_0.index t (0 : Fin 3)) (h1 : (k 1).val = ch.val)
    (h2 : (k 2).val = win0_0.index t (2 : Fin 3) * 512 + r.val) :
    xtile m c t (ix3 (0 : Fin 1) ch r) = V m c main_v0 k := by
  obtain ⟨x0, x1, -⟩ := ext_rows t
  obtain ⟨-, i1, -⟩ := idx_rows t
  have hm : win0_0.moved (grid0.coords t) (ix3 (0 : Fin 1) ch r) = true :=
    (win0_0.moved_iff _ _).mpr fun a => by
      match a with
      | ⟨0, _⟩ => show 0 < win0_0.xsize (grid0.coords t) (0 : Fin 3); omega
      | ⟨1, _⟩ => show ch.val < win0_0.xsize (grid0.coords t) (1 : Fin 3); have := ch.isLt; omega
      | ⟨2, _⟩ => exact hr
  unfold xtile Window.fill
  rw [dif_pos hm]
  unfold iblk
  rw [View.read_apply]
  show V m c main_v0 _ = V m c main_v0 k
  congr 1
  funext a
  apply Fin.ext
  match a with
  | ⟨0, _⟩ => show win0_0.index t (0 : Fin 3) * 1 + 1 * 0 = (k 0).val; omega
  | ⟨1, _⟩ => show win0_0.index t (1 : Fin 3) * 384 + 1 * ch.val = (k 1).val; omega
  | ⟨2, _⟩ => show win0_0.index t (2 : Fin 3) * 512 + 1 * r.val = (k 2).val; omega

/-! ## The channels-last array -/

/-- What the region leaves in the first result array: the merged feature map with channels last. -/
private def rowsArr (c : Dev nD) : S16x3136x384.Idx → EReal := fun i => V m c main_v0 (ix3 (i 0) (i 2) (i 1))

/-- What a point writes back is its block of that array. -/
private theorem flushed3_eq (c : Dev nD) (t : Fin cfg0.N) :
    (dats m 0 c).flushed 3 t = ((cfg0.win 3).blk t).view.read (Elt Ideal) (rowsArr m c) := by
  obtain ⟨e0, e1, e2, e3, -⟩ := idx_rows t
  obtain ⟨x0, x1, x2, x3, x4, -, -, -, x8⟩ := ext_rows t
  funext y
  have y0 : (y 0).val < win0_3.xsize (grid0.coords t) (0 : Fin 3) := (y 0).isLt
  have y1 : (y 1).val < win0_3.xsize (grid0.coords t) (1 : Fin 3) := (y 1).isLt
  have y2 : (y 2).val < win0_3.xsize (grid0.coords t) (2 : Fin 3) := (y 2).isLt
  show (dats m 0 c).after 3 t (win0_3.xinj (grid0.coords t) y) = _
  rw [after_3, View.read_apply]
  have hy : win0_3.xinj (grid0.coords t) y
      = ix3 (0 : Fin 1) (⟨(y 1).val, by omega⟩ : Fin 512) (⟨(y 2).val, by omega⟩ : Fin 384) :=
    funext fun a => Fin.ext (by
      match a with
      | ⟨0, _⟩ => show (y 0).val = 0; omega
      | ⟨1, _⟩ => rfl
      | ⟨2, _⟩ => rfl)
  rw [hy, pay4_apply]
  show _ = V m c main_v0 _
  refine xtile_apply m c t _ _ ?_ _ ?_ ?_ ?_
  · show (y 1).val < _; omega
  · show win0_3.index t (0 : Fin 3) * 1 + 1 * (y 0).val = win0_0.index t (0 : Fin 3); omega
  · show win0_3.index t (2 : Fin 3) * 384 + 1 * (y 2).val = (y 2).val; omega
  · show win0_3.index t (1 : Fin 3) * 512 + 1 * (y 1).val = win0_0.index t (2 : Fin 3) * 512 + (y 1).val; omega

/-- Every index of the array is in the block of the point of its image and its position's tile. -/
private theorem cover3 (i : S16x3136x384.Idx) :
    ∃ t : Fin cfg0.N, (cfg0.win 3).flush t = true ∧ i ∈ ((cfg0.win 3).blk t).view.set := by
  have h0 : (i 0).val < 16 := (i 0).isLt
  have h1 : (i 1).val < 3136 := (i 1).isLt
  have h2 : (i 2).val < 384 := (i 2).isLt
  obtain ⟨t, q0, q1⟩ := idx_onto_rows ⟨(i 0).val, h0⟩ ⟨(i 1).val / 512, by omega⟩
  have q0' : win0_3.index t (0 : Fin 3) = (i 0).val := q0
  have q1' : win0_3.index t (1 : Fin 3) = (i 1).val / 512 := q1
  obtain ⟨-, -, -, e3, -⟩ := idx_rows t
  obtain ⟨-, -, -, x3, x4, -, -, -, x8⟩ := ext_rows t
  refine ⟨t, flush0_3 t, ?_⟩
  show i ∈ ((View.whole main_v5_0).slice (win0_3.rect t)).set
  rw [View.set_slice_whole, Rect.mem_set_unit]
  intro a
  match a with
  | ⟨0, _⟩ =>
    show win0_3.index t (0 : Fin 3) * 1 ≤ (i 0).val
      ∧ (i 0).val < win0_3.index t (0 : Fin 3) * 1 + win0_3.xsize (grid0.coords t) (0 : Fin 3)
    omega
  | ⟨1, _⟩ =>
    show win0_3.index t (1 : Fin 3) * 512 ≤ (i 1).val
      ∧ (i 1).val < win0_3.index t (1 : Fin 3) * 512 + win0_3.xsize (grid0.coords t) (1 : Fin 3)
    omega
  | ⟨2, _⟩ =>
    show win0_3.index t (2 : Fin 3) * 384 ≤ (i 2).val
      ∧ (i 2).val < win0_3.index t (2 : Fin 3) * 384 + win0_3.xsize (grid0.coords t) (2 : Fin 3)
    omega

/-- So the array ends holding it. -/
private theorem final3 (c : Dev nD) : (dats m 0 c).arrAt 3 cfg0.N = rowsArr m c :=
  (dats m 0 c).arrAt_eq_of_cover 3 (rowsArr m c) (fun t _ => flushed3_eq m c t) cover3

/-- The channels-last result. -/
theorem res_chanLast (c : Dev nD) :
    Pipeline.afterTail₀ cfgs (dats m) 0 (V0 m) [hostOps1] c main_v6 = chanLast (featArg m c) := by
  have hA : Pipeline.withArrays spec0 c (V0 m c) (fun w => (dats m 0 c).arrAt w cfg0.N) (Proc.devRef .tc main_v5_0)
      = rowsArr m c :=
    (Pipeline.withArrays_arr spec0 launch0.win.arr_inj c _ _ 3).trans (final3 m c)
  unfold Pipeline.afterTail₀
  show StableHlo.after hostOps1 _ (Proc.devRef .tc main_v6) = _
  after_results
  refine funext fun (i : S16x56x56x384.Idx) => ?_
  obtain ⟨b, h, v, ch, rfl⟩ : ∃ (b : Fin 16) (h v : Fin 56) (ch : Fin 384), i = ix4 b h v ch :=
    ⟨i 0, i 1, i 2, i 3, eq_ix4 i⟩
  have hh : h.val < 56 := h.isLt
  have hv : v.val < 56 := v.isLt
  have hn : h.val * 56 + v.val < 3136 := by omega
  show shapeCast S16x56x56x384 (Pipeline.withArrays spec0 c (V0 m c) (fun w => (dats m 0 c).arrAt w cfg0.N)
    (Proc.devRef .tc main_v5_0)) shapeCasts_S16x3136x384_S16x56x56x384 (ix4 b h v ch) = _
  refine (shapeCast_apply (s := S16x3136x384) (t := S16x56x56x384) _ _ (ix4 b h v ch)
    (ix3 b (⟨h.val * 56 + v.val, hn⟩ : Fin 3136) ch) (by
      rw [Shape.rowMajor_val_three, Shape.rowMajor_val_four]
      show (b.val * 3136 + (h.val * 56 + v.val)) * 384 + ch.val = ((b.val * 56 + h.val) * 56 + v.val) * 384 + ch.val
      omega)).trans ?_
  refine (congrFun hA _).trans ?_
  refine (entry_feat m c b ch ⟨h.val * 56 + v.val, hn⟩).trans ?_
  have hr : rowOf (⟨h.val * 56 + v.val, hn⟩ : Fin 3136) = h :=
    Fin.ext (by show (h.val * 56 + v.val) / 56 = h.val; omega)
  have hc : colOf (⟨h.val * 56 + v.val, hn⟩ : Fin 3136) = v :=
    Fin.ext (by show (h.val * 56 + v.val) % 56 = v.val; omega)
  rw [hr, hc]
  rfl

/-! ## The distances -/

/-- The codebook's and the squared norms' windows sit at block zero at every point: their blocks are the arrays. -/
private theorem idx_whole : ∀ t : Fin cfg0.N, win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

private theorem wblk_eq (c : Dev nD) (t : Fin cfg0.N) : wblk m c t = (V m c main_v1 : S1024x384.Idx → EReal) := by
  obtain ⟨w0, w1, -⟩ := idx_whole t
  funext j
  show iblk m c 1 t j = _
  unfold iblk
  rw [View.read_apply]
  show V m c main_v1 _ = V m c main_v1 j
  congr 1
  funext a
  apply Fin.ext
  match a with
  | ⟨0, _⟩ => show win0_1.index t (0 : Fin 2) * 1024 + 1 * (j 0).val = (j 0).val; omega
  | ⟨1, _⟩ => show win0_1.index t (1 : Fin 2) * 384 + 1 * (j 1).val = (j 1).val; omega

private theorem sblk_eq (c : Dev nD) (t : Fin cfg0.N) : sblk m c t = (V m c main_v4 : S1x1024.Idx → EReal) := by
  obtain ⟨-, -, s0, s1⟩ := idx_whole t
  funext j
  show iblk m c 2 t j = _
  unfold iblk
  rw [View.read_apply]
  show V m c main_v4 _ = V m c main_v4 j
  congr 1
  funext a
  apply Fin.ext
  match a with
  | ⟨0, _⟩ => show win0_2.index t (0 : Fin 2) * 1 + 1 * (j 0).val = (j 0).val; omega
  | ⟨1, _⟩ => show win0_2.index t (1 : Fin 2) * 1024 + 1 * (j 1).val = (j 1).val; omega

/-- What the region leaves in the second result array: at (image, position, code) the squared distance of the
    position's channels to the code. -/
private def distArr (c : Dev nD) : S16x3136x1024.Idx → EReal := fun i =>
  dist (fun ch => V m c main_v0 (ix3 (i 0) ch (i 1))) (tcodes (V m c main_v1)) (tnorms (V m c main_v4)) (i 2)

private theorem distArr_apply (c : Dev nD) (i : S16x3136x1024.Idx) : distArr m c i
    = dist (fun ch => V m c main_v0 (ix3 (i 0) ch (i 1))) (tcodes (V m c main_v1)) (tnorms (V m c main_v4)) (i 2) := rfl

/-- What a point writes back is its block of that array. -/
private theorem flushed4_eq (c : Dev nD) (t : Fin cfg0.N) :
    (dats m 0 c).flushed 4 t = ((cfg0.win 4).blk t).view.read (Elt Ideal) (distArr m c) := by
  obtain ⟨e0, e1, e2, e3, e4, e5, e6, -⟩ := idx_rows t
  obtain ⟨x0, x1, x2, x3, x4, x5, x6, x7, x8⟩ := ext_rows t
  funext y
  have y0 : (y 0).val < win0_4.xsize (grid0.coords t) (0 : Fin 3) := (y 0).isLt
  have y1 : (y 1).val < win0_4.xsize (grid0.coords t) (1 : Fin 3) := (y 1).isLt
  have y2 : (y 2).val < win0_4.xsize (grid0.coords t) (2 : Fin 3) := (y 2).isLt
  show (dats m 0 c).after 4 t (win0_4.xinj (grid0.coords t) y) = _
  rw [after_4, View.read_apply]
  have hy : win0_4.xinj (grid0.coords t) y
      = ix3 (0 : Fin 1) (⟨(y 1).val, by omega⟩ : Fin 512) (⟨(y 2).val, by omega⟩ : Fin 1024) :=
    funext fun a => Fin.ext (by
      match a with
      | ⟨0, _⟩ => show (y 0).val = 0; omega
      | ⟨1, _⟩ => rfl
      | ⟨2, _⟩ => rfl)
  rw [hy, pay7_apply, wblk_eq, sblk_eq]
  show _ = distArr m c (((cfg0.win 4).blk t).view.emb y)
  rw [distArr_apply]
  have hrow : trow (xtile m c t) (⟨(y 1).val, by omega⟩ : Fin 512)
      = fun ch => V m c main_v0 (ix3 ((((cfg0.win 4).blk t).view.emb y) 0) ch ((((cfg0.win 4).blk t).view.emb y) 1)) :=
    funext fun ch => xtile_apply m c t ch _ (by show (y 1).val < _; omega) _
      (by show win0_4.index t (0 : Fin 3) * 1 + 1 * (y 0).val = win0_0.index t (0 : Fin 3); omega)
      rfl
      (by show win0_4.index t (1 : Fin 3) * 512 + 1 * (y 1).val = win0_0.index t (2 : Fin 3) * 512 + (y 1).val; omega)
  have hk : (⟨(y 2).val, by omega⟩ : Fin 1024) = (((cfg0.win 4).blk t).view.emb y) 2 :=
    Fin.ext (by show (y 2).val = win0_4.index t (2 : Fin 3) * 1024 + 1 * (y 2).val; omega)
  rw [hrow, hk]

/-- Every index of the array is in the block of the point of its image and its position's tile. -/
private theorem cover4 (i : S16x3136x1024.Idx) :
    ∃ t : Fin cfg0.N, (cfg0.win 4).flush t = true ∧ i ∈ ((cfg0.win 4).blk t).view.set := by
  have h0 : (i 0).val < 16 := (i 0).isLt
  have h1 : (i 1).val < 3136 := (i 1).isLt
  have h2 : (i 2).val < 1024 := (i 2).isLt
  obtain ⟨t, q0, q1⟩ := idx_onto_rows ⟨(i 0).val, h0⟩ ⟨(i 1).val / 512, by omega⟩
  have q0' : win0_3.index t (0 : Fin 3) = (i 0).val := q0
  have q1' : win0_3.index t (1 : Fin 3) = (i 1).val / 512 := q1
  obtain ⟨-, -, -, -, e4, e5, e6, -⟩ := idx_rows t
  obtain ⟨-, -, -, -, -, x5, x6, x7, x8⟩ := ext_rows t
  refine ⟨t, flush0_4 t, ?_⟩
  show i ∈ ((View.whole main_v5_1).slice (win0_4.rect t)).set
  rw [View.set_slice_whole, Rect.mem_set_unit]
  intro a
  match a with
  | ⟨0, _⟩ =>
    show win0_4.index t (0 : Fin 3) * 1 ≤ (i 0).val
      ∧ (i 0).val < win0_4.index t (0 : Fin 3) * 1 + win0_4.xsize (grid0.coords t) (0 : Fin 3)
    omega
  | ⟨1, _⟩ =>
    show win0_4.index t (1 : Fin 3) * 512 ≤ (i 1).val
      ∧ (i 1).val < win0_4.index t (1 : Fin 3) * 512 + win0_4.xsize (grid0.coords t) (1 : Fin 3)
    omega
  | ⟨2, _⟩ =>
    show win0_4.index t (2 : Fin 3) * 1024 ≤ (i 2).val
      ∧ (i 2).val < win0_4.index t (2 : Fin 3) * 1024 + win0_4.xsize (grid0.coords t) (2 : Fin 3)
    omega

/-- So the array ends holding it. -/
private theorem final4 (c : Dev nD) : (dats m 0 c).arrAt 4 cfg0.N = distArr m c :=
  (dats m 0 c).arrAt_eq_of_cover 4 (distArr m c) (fun t _ => flushed4_eq m c t) cover4

/-- The distances. -/
theorem res_dist (c : Dev nD) :
    Pipeline.afterTail₀ cfgs (dats m) 0 (V0 m) [hostOps1] c main_v9 = distMap (featArg m c) (codeArg m c) := by
  have hA : Pipeline.withArrays spec0 c (V0 m c) (fun w => (dats m 0 c).arrAt w cfg0.N) (Proc.devRef .tc main_v5_1)
      = distArr m c :=
    (Pipeline.withArrays_arr spec0 launch0.win.arr_inj c _ _ 4).trans (final4 m c)
  have hW : tcodes (V m c main_v1) = codes (codeArg m c) :=
    funext fun k => funext fun ch => entry_codes m c (ix2 k ch)
  have hS : tnorms (V m c main_v4) = norms (codeArg m c) := funext fun k => entry_norms m c k
  unfold Pipeline.afterTail₀
  show StableHlo.after hostOps1 _ (Proc.devRef .tc main_v9) = _
  after_results
  refine funext fun (i : S50176x1024.Idx) => ?_
  obtain ⟨p, k, rfl⟩ : ∃ (p : Fin 50176) (k : Fin 1024), i = ix2 p k := ⟨i 0, i 1, eq_ix2 i⟩
  have hp : p.val < 50176 := p.isLt
  have hn : p.val % 3136 < 3136 := Nat.mod_lt _ (by decide)
  show shapeCast S50176x1024 (Pipeline.withArrays spec0 c (V0 m c) (fun w => (dats m 0 c).arrAt w cfg0.N)
    (Proc.devRef .tc main_v5_1)) shapeCasts_S16x3136x1024_S50176x1024 (ix2 p k) = _
  refine (shapeCast_apply (s := S16x3136x1024) (t := S50176x1024) _ _ (ix2 p k)
    (ix3 (posB p) (⟨p.val % 3136, hn⟩ : Fin 3136) k) (by
      rw [Shape.rowMajor_val_three, Shape.rowMajor_val_two]
      show (p.val / 3136 * 3136 + p.val % 3136) * 1024 + k.val = p.val * 1024 + k.val
      omega)).trans ?_
  refine (congrFun hA _).trans ?_
  rw [distArr_apply]
  show dist (fun ch => V m c main_v0 (ix3 (posB p) ch (⟨p.val % 3136, hn⟩ : Fin 3136))) (tcodes (V m c main_v1))
      (tnorms (V m c main_v4)) k
    = dist (pix (featArg m c) (posB p) (posH p) (posV p)) (codes (codeArg m c)) (norms (codeArg m c)) k
  have hr : rowOf (⟨p.val % 3136, hn⟩ : Fin 3136) = posH p :=
    Fin.ext (by show p.val % 3136 / 56 = p.val / 56 % 56; omega)
  have hc : colOf (⟨p.val % 3136, hn⟩ : Fin 3136) = posV p :=
    Fin.ext (by show p.val % 3136 % 56 = p.val % 56; omega)
  have hX : (fun ch => V m c main_v0 (ix3 (posB p) ch (⟨p.val % 3136, hn⟩ : Fin 3136)))
      = pix (featArg m c) (posB p) (posH p) (posV p) :=
    funext fun ch => by
      refine (entry_feat m c (posB p) ch ⟨p.val % 3136, hn⟩).trans ?_
      rw [hr, hc]
      rfl
  rw [hX, hW, hS]

end Cert.KernelIdeal.Tile

end
-- ==== Proof.ArraysCols.lean ====
/-
  The two result arrays whose blocks are all codes or all channels by 512 positions: the soft assignment and
  the lookup, both with positions last. Block (b, j) of each is columns 512·j … of image b; the blocks inside
  the array tile it, so after the run the array is one function of the arguments; the host lines after the
  region only split the position axis in two.

  Point t of the grid is image t / 7 and tile t % 7. There the feature tile's row r, for a position 512·(t % 7) + r
  below 3136, is that position's 384 channels, and the codebook and the norms are staged whole; so the element
  the point writes at (code or channel, r) is the row function of RowMath at that position. The seventh tile of an
  image is cut to its first 64 positions, in the feature window and in both result windows alike, and the blocks
  of the points of one image cover positions 0 … 3135: index (b, ·, n) lies in the block of point 7·b + n / 512.
  Position n of the merged axis is row n / 56 and column n % 56 of the image, which is how the reshape after the
  region and the reshape before it name it.
-/
import proofs.«415149_j87600152969629_3_alg».proof.Proof.TileData
import proofs.«415149_j87600152969629_3_alg».proof.Proof.PaySoft
import proofs.«415149_j87600152969629_3_alg».proof.Proof.Entry

set_option maxRecDepth 16384

noncomputable section

open scoped BigOperators

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.VQ Idealize.ShloMosaic.ValueIdx

variable (m : (ℓ : Loc nD τ sig) → Buf (Elt Ideal) ℓ)

/-! ## The grid's index maps, decided once -/

/-- At grid point t the feature window and the two position-last result windows all sit at image t / 7 and
    tile t % 7; the block is whole on the first two axes, and on the position axis it is cut to the same
    length in all three, ending at the smaller of the tile's end and 3136. -/
private theorem idx_tiles : ∀ t : Fin cfg0.N,
    (win0_5.index t (0 : Fin 3) = t.val / 7 ∧ win0_5.index t (1 : Fin 3) = 0 ∧ win0_5.index t (2 : Fin 3) = t.val % 7
      ∧ win0_5.xsize (grid0.coords t) (0 : Fin 3) = 1 ∧ win0_5.xsize (grid0.coords t) (1 : Fin 3) = 1024
      ∧ win0_5.index t (2 : Fin 3) * 512 + win0_5.xsize (grid0.coords t) (2 : Fin 3) = min (t.val % 7 * 512 + 512) 3136)
    ∧ (win0_6.index t (0 : Fin 3) = t.val / 7 ∧ win0_6.index t (1 : Fin 3) = 0 ∧ win0_6.index t (2 : Fin 3) = t.val % 7
      ∧ win0_6.xsize (grid0.coords t) (0 : Fin 3) = 1 ∧ win0_6.xsize (grid0.coords t) (1 : Fin 3) = 384
      ∧ win0_6.index t (2 : Fin 3) * 512 + win0_6.xsize (grid0.coords t) (2 : Fin 3) = min (t.val % 7 * 512 + 512) 3136)
    ∧ (win0_0.index t (0 : Fin 3) = t.val / 7 ∧ win0_0.index t (1 : Fin 3) = 0 ∧ win0_0.index t (2 : Fin 3) = t.val % 7
      ∧ win0_0.xsize (grid0.coords t) (0 : Fin 3) = 1 ∧ win0_0.xsize (grid0.coords t) (1 : Fin 3) = 384
      ∧ win0_0.xsize (grid0.coords t) (2 : Fin 3) = win0_5.xsize (grid0.coords t) (2 : Fin 3)
      ∧ win0_0.xsize (grid0.coords t) (2 : Fin 3) = win0_6.xsize (grid0.coords t) (2 : Fin 3)) :=
  (by decide +kernel : ∀ t : Fin grid0.N, _)

/-- The codebook window and the norms window are the whole arrays at every point. -/
private theorem idx_whole : ∀ t : Fin cfg0.N,
    win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-! ## The staged blocks as parts of the arrays -/

/-- The staged codebook is the codebook array. -/
private theorem wblk_eq (c : Dev nD) (t : Fin cfg0.N) :
    (wblk m c t : Vec Ideal S1024x384 .bf16) = (V m c main_v1 : S1024x384.Idx → EReal) := by
  funext y
  obtain ⟨e0, e1, -, -⟩ := idx_whole t
  show (iblk m c 1 t : Vec Ideal S1024x384 .bf16) y = _
  unfold iblk
  rw [View.read_apply]
  show V m c main_v1 (((cfg0.win 1).blk t).view.emb y) = V m c main_v1 y
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 384 + 1 * (y 1).val = (y 1).val; rw [e1]; omega

/-- The staged norms are the norms array. -/
private theorem sblk_eq (c : Dev nD) (t : Fin cfg0.N) :
    (sblk m c t : Vec Ideal S1x1024 .f32) = (V m c main_v4 : S1x1024.Idx → EReal) := by
  funext y
  obtain ⟨-, -, e0, e1⟩ := idx_whole t
  show (iblk m c 2 t : Vec Ideal S1x1024 .f32) y = _
  unfold iblk
  rw [View.read_apply]
  show V m c main_v4 (((cfg0.win 2).blk t).view.emb y) = V m c main_v4 y
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 1024 + 1 * (y 1).val = (y 1).val; rw [e1]; omega

/-- Row r of the feature tile at point t, for a position inside the array, is the 384 channels of position
    512 · (t % 7) + r of image t / 7. -/
private theorem xtile_row (c : Dev nD) (t : Fin cfg0.N) (r : Fin 512) (hr : r.val < win0_0.xsize (grid0.coords t) (2 : Fin 3))
    (b : Fin 16) (n : Fin 3136) (hb : b.val = t.val / 7) (hn : n.val = t.val % 7 * 512 + r.val) :
    trow (xtile m c t) r = fun ch => (V m c main_v0 : S16x384x3136.Idx → EReal) (ix3 b ch n) := by
  funext ch
  obtain ⟨-, -, e0, e1, e2, s0, s1, -, -⟩ := idx_tiles t
  have hmv : win0_0.moved (grid0.coords t) (ix3 (0 : Fin 1) ch r) = true := by
    rw [Window.moved_iff]
    intro a
    match a with
    | ⟨0, _⟩ => show 0 < win0_0.xsize (grid0.coords t) (0 : Fin 3); rw [s0]; omega
    | ⟨1, _⟩ => show ch.val < win0_0.xsize (grid0.coords t) (1 : Fin 3); rw [s1]; exact ch.isLt
    | ⟨2, _⟩ => exact hr
  unfold trow xtile Window.fill
  rw [dif_pos hmv]
  unfold iblk
  rw [View.read_apply]
  show V m c main_v0 (((cfg0.win 0).blk t).view.emb _) = V m c main_v0 (ix3 b ch n)
  congr 1
  funext a
  apply Fin.ext
  match a with
  | ⟨0, _⟩ => show win0_0.index t (0 : Fin 3) * 1 + 1 * 0 = b.val; rw [e0]; omega
  | ⟨1, _⟩ => show win0_0.index t (1 : Fin 3) * 384 + 1 * ch.val = ch.val; rw [e1]; omega
  | ⟨2, _⟩ => show win0_0.index t (2 : Fin 3) * 512 + 1 * r.val = n.val; rw [e2]; omega

/-! ## The soft assignment, positions last -/

private theorem soft_congr {x x' : Fin 384 → EReal} {w w' : Fin 1024 → Fin 384 → EReal} {s s' : Fin 1024 → EReal}
    {k k' : Fin 1024} (hx : x = x') (hw : w = w') (hs : s = s') (hk : k = k') :
    soft x w s k = soft x' w' s' k' := by subst hx hw hs hk; rfl

/-- The assignment array after the run: at (image, code, position), the soft assignment of that position's
    channels to the code. -/
private def softArr (c : Dev nD) : S16x1024x3136.Idx → EReal := fun i =>
  soft (fun ch => (V m c main_v0 : S16x384x3136.Idx → EReal) (ix3 (i 0) ch (i 2)))
    (tcodes (V m c main_v1)) (tnorms (V m c main_v4)) (i 1)

/-- What point t writes back to the assignment array is its block of `softArr`. -/
private theorem flushed_soft (c : Dev nD) (t : Fin cfg0.N) :
    (dats m 0 c).flushed 5 t = ((cfg0.win 5).blk t).view.read (Elt Ideal) (softArr m c) := by
  show (cfg0.win 5).cut (grid0.coords t) ((dats m 0 c).after 5 t) = _
  rw [after_5]
  funext j
  obtain ⟨⟨e0, e1, e2, s0, s1, -⟩, -, -, -, -, -, -, s2, -⟩ := idx_tiles t
  have hj0 : (j 0).val < win0_5.xsize (grid0.coords t) (0 : Fin 3) := (j 0).isLt
  have hj1 : (j 1).val < win0_5.xsize (grid0.coords t) (1 : Fin 3) := (j 1).isLt
  have hj2 : (j 2).val < win0_5.xsize (grid0.coords t) (2 : Fin 3) := (j 2).isLt
  have hx2 : win0_5.xsize (grid0.coords t) (2 : Fin 3) ≤ 512 := win0_5.xsize_le (grid0.coords t) (2 : Fin 3)
  rw [s0] at hj0; rw [s1] at hj1
  have hin : win0_5.xinj (grid0.coords t) j = ix3 (0 : Fin 1) (⟨(j 1).val, hj1⟩ : Fin 1024) (⟨(j 2).val, by omega⟩ : Fin 512) := by
    funext a
    apply Fin.ext
    match a with
    | ⟨0, _⟩ => show (j 0).val = 0; omega
    | ⟨1, _⟩ => rfl
    | ⟨2, _⟩ => rfl
  show k0_pay1 (k0_pay9 (xtile m c t) (wblk m c t) (sblk m c t)) (win0_5.xinj (grid0.coords t) j)
    = softArr m c (((cfg0.win 5).blk t).view.emb j)
  rw [hin]
  refine (pay19_apply (xtile m c t) (wblk m c t) (sblk m c t) _ _).trans ?_
  unfold softArr
  refine soft_congr (xtile_row m c t _ (by rw [s2]; exact hj2) _ _ ?_ ?_) (congrArg tcodes (wblk_eq m c t))
    (congrArg tnorms (sblk_eq m c t)) (Fin.ext ?_)
  · show win0_5.index t (0 : Fin 3) * 1 + 1 * (j 0).val = t.val / 7; rw [e0]; omega
  · show win0_5.index t (2 : Fin 3) * 512 + 1 * (j 2).val = t.val % 7 * 512 + (j 2).val; rw [e2]; omega
  · show (j 1).val = win0_5.index t (1 : Fin 3) * 1024 + 1 * (j 1).val; rw [e1]; omega

/-- Every index of the assignment array lies in the block of the point of its image and its tile. -/
private theorem cover_soft (i : S16x1024x3136.Idx) :
    ∃ t : Fin cfg0.N, (cfg0.win 5).flush t = true ∧ i ∈ ((cfg0.win 5).blk t).view.set := by
  have h0 : (i 0).val < 16 := (i 0).isLt
  have h1 : (i 1).val < 1024 := (i 1).isLt
  have h2 : (i 2).val < 3136 := (i 2).isLt
  have hN : cfg0.N = 112 := N_0
  obtain ⟨t, ht⟩ : ∃ t : Fin cfg0.N, t.val = (i 0).val * 7 + (i 2).val / 512 :=
    ⟨⟨(i 0).val * 7 + (i 2).val / 512, by rw [hN]; omega⟩, rfl⟩
  refine ⟨t, flush0_5 t, ?_⟩
  obtain ⟨⟨e0, e1, e2, s0, s1, s2⟩, -⟩ := idx_tiles t
  show i ∈ ((View.whole main_v5_2).slice (win0_5.rect t)).set
  rw [View.set_slice_whole, Rect.mem_set_unit]
  intro a
  match a with
  | ⟨0, _⟩ =>
    show win0_5.index t (0 : Fin 3) * 1 ≤ (i 0).val ∧ (i 0).val < win0_5.index t (0 : Fin 3) * 1 + win0_5.xsize (grid0.coords t) (0 : Fin 3)
    rw [e0, s0]; omega
  | ⟨1, _⟩ =>
    show win0_5.index t (1 : Fin 3) * 1024 ≤ (i 1).val ∧ (i 1).val < win0_5.index t (1 : Fin 3) * 1024 + win0_5.xsize (grid0.coords t) (1 : Fin 3)
    rw [e1, s1]; omega
  | ⟨2, _⟩ =>
    show win0_5.index t (2 : Fin 3) * 512 ≤ (i 2).val ∧ (i 2).val < win0_5.index t (2 : Fin 3) * 512 + win0_5.xsize (grid0.coords t) (2 : Fin 3)
    rw [s2, e2]; omega

/-- The assignment array after the run. -/
private theorem final_soft (c : Dev nD) : (dats m 0 c).arrAt 5 cfg0.N = softArr m c :=
  (dats m 0 c).arrAt_eq_of_cover 5 (softArr m c) (fun t _ => flushed_soft m c t) (cover_soft)

/-- The staged codebook and norms as the specification's. -/
private theorem tcodes_entry (c : Dev nD) : tcodes (V m c main_v1) = codes (codeArg m c) :=
  funext fun k => funext fun ch => entry_codes m c (ix2 k ch)
private theorem tnorms_entry (c : Dev nD) : tnorms (V m c main_v4) = norms (codeArg m c) :=
  funext fun k => entry_norms m c k

/-- The channels of position 56 · h + v of image b are the specification's pixel (b, h, v). -/
private theorem row_entry (c : Dev nD) (b : Fin 16) (h v : Fin 56) (n : Fin 3136) (hn : n.val = h.val * 56 + v.val) :
    (fun ch => (V m c main_v0 : S16x384x3136.Idx → EReal) (ix3 b ch n)) = pix (featArg m c) b h v := by
  funext ch
  have hv : v.val < 56 := v.isLt
  rw [entry_feat m c b ch n]
  unfold pix
  congr 2
  · exact Fin.ext (by show n.val / 56 = h.val; omega)
  · exact Fin.ext (by show n.val % 56 = v.val; omega)

/-- The soft assignment. -/
theorem res_soft (c : Dev nD) :
    Pipeline.afterTail₀ cfgs (dats m) 0 (V0 m) [hostOps1] c main_v8 = softMap (featArg m c) (codeArg m c) := by
  unfold Pipeline.afterTail₀
  show StableHlo.after hostOps1 _ (Proc.devRef .tc main_v8) = _
  after_results
  have e : Pipeline.withArrays (cfgs 0).spec c (V0 m c) (fun w => (dats m 0 c).arrAt w (cfgs 0).N) (Proc.devRef .tc main_v5_2)
      = softArr m c := (Pipeline.withArrays_arr spec0 launch0.win.arr_inj c _ _ 5).trans (final_soft m c)
  funext i
  have h2 : (i 2).val < 56 := (i 2).isLt
  have h3 : (i 3).val < 56 := (i 3).isLt
  show shapeCast S16x1024x56x56 (Pipeline.withArrays (cfgs 0).spec c (V0 m c) (fun w => (dats m 0 c).arrAt w (cfgs 0).N) (Proc.devRef .tc main_v5_2))
    shapeCasts_S16x1024x3136_S16x1024x56x56 i = _
  rw [e]
  refine (shapeCast_apply (softArr m c) shapeCasts_S16x1024x3136_S16x1024x56x56 i
    (ix3 (i 0) (i 1) (⟨(i 2).val * 56 + (i 3).val, by omega⟩ : Fin 3136)) ?_).trans ?_
  · rw [Shape.rowMajor_val_three, Shape.rowMajor_val_four]
    show ((i 0).val * 1024 + (i 1).val) * 3136 + ((i 2).val * 56 + (i 3).val)
      = (((i 0).val * 1024 + (i 1).val) * 56 + (i 2).val) * 56 + (i 3).val
    omega
  · unfold softArr softMap
    exact soft_congr (row_entry m c _ _ _ _ rfl) (tcodes_entry m c) (tnorms_entry m c) rfl

/-! ## The lookup, positions last -/

private theorem look_congr {x x' : Fin 384 → EReal} {w w' : Fin 1024 → Fin 384 → EReal} {s s' : Fin 1024 → EReal}
    {k k' : Fin 384} (hx : x = x') (hw : w = w') (hs : s = s') (hk : k = k') :
    look x w s k = look x' w' s' k' := by subst hx hw hs hk; rfl

/-- The lookup array after the run: at (image, channel, position), that position's assignment-weighted sum
    of the codes' channel. -/
private def lookArr (c : Dev nD) : S16x384x3136.Idx → EReal := fun i =>
  look (fun ch => (V m c main_v0 : S16x384x3136.Idx → EReal) (ix3 (i 0) ch (i 2)))
    (tcodes (V m c main_v1)) (tnorms (V m c main_v4)) (i 1)

/-- What point t writes back to the lookup array is its block of `lookArr`. -/
private theorem flushed_look (c : Dev nD) (t : Fin cfg0.N) :
    (dats m 0 c).flushed 6 t = ((cfg0.win 6).blk t).view.read (Elt Ideal) (lookArr m c) := by
  show (cfg0.win 6).cut (grid0.coords t) ((dats m 0 c).after 6 t) = _
  rw [after_6]
  funext j
  obtain ⟨-, ⟨e0, e1, e2, s0, s1, -⟩, -, -, -, -, -, -, s2⟩ := idx_tiles t
  have hj0 : (j 0).val < win0_6.xsize (grid0.coords t) (0 : Fin 3) := (j 0).isLt
  have hj1 : (j 1).val < win0_6.xsize (grid0.coords t) (1 : Fin 3) := (j 1).isLt
  have hj2 : (j 2).val < win0_6.xsize (grid0.coords t) (2 : Fin 3) := (j 2).isLt
  have hx2 : win0_6.xsize (grid0.coords t) (2 : Fin 3) ≤ 512 := win0_6.xsize_le (grid0.coords t) (2 : Fin 3)
  rw [s0] at hj0; rw [s1] at hj1
  have hin : win0_6.xinj (grid0.coords t) j = ix3 (0 : Fin 1) (⟨(j 1).val, hj1⟩ : Fin 384) (⟨(j 2).val, by omega⟩ : Fin 512) := by
    funext a
    apply Fin.ext
    match a with
    | ⟨0, _⟩ => show (j 0).val = 0; omega
    | ⟨1, _⟩ => rfl
    | ⟨2, _⟩ => rfl
  show k0_pay2 (k0_pay5 (wblk m c t)) (k0_pay8 (xtile m c t) (wblk m c t) (sblk m c t)) (win0_6.xinj (grid0.coords t) j)
    = lookArr m c (((cfg0.win 6).blk t).view.emb j)
  rw [hin]
  refine (pay2_apply (xtile m c t) (wblk m c t) (sblk m c t) _ _).trans ?_
  unfold lookArr
  refine look_congr (xtile_row m c t _ (by rw [s2]; exact hj2) _ _ ?_ ?_) (congrArg tcodes (wblk_eq m c t))
    (congrArg tnorms (sblk_eq m c t)) (Fin.ext ?_)
  · show win0_6.index t (0 : Fin 3) * 1 + 1 * (j 0).val = t.val / 7; rw [e0]; omega
  · show win0_6.index t (2 : Fin 3) * 512 + 1 * (j 2).val = t.val % 7 * 512 + (j 2).val; rw [e2]; omega
  · show (j 1).val = win0_6.index t (1 : Fin 3) * 384 + 1 * (j 1).val; rw [e1]; omega

/-- Every index of the lookup array lies in the block of the point of its image and its tile. -/
private theorem cover_look (i : S16x384x3136.Idx) :
    ∃ t : Fin cfg0.N, (cfg0.win 6).flush t = true ∧ i ∈ ((cfg0.win 6).blk t).view.set := by
  have h0 : (i 0).val < 16 := (i 0).isLt
  have h1 : (i 1).val < 384 := (i 1).isLt
  have h2 : (i 2).val < 3136 := (i 2).isLt
  have hN : cfg0.N = 112 := N_0
  obtain ⟨t, ht⟩ : ∃ t : Fin cfg0.N, t.val = (i 0).val * 7 + (i 2).val / 512 :=
    ⟨⟨(i 0).val * 7 + (i 2).val / 512, by rw [hN]; omega⟩, rfl⟩
  refine ⟨t, flush0_6 t, ?_⟩
  obtain ⟨-, ⟨e0, e1, e2, s0, s1, s2⟩, -⟩ := idx_tiles t
  show i ∈ ((View.whole main_v5_3).slice (win0_6.rect t)).set
  rw [View.set_slice_whole, Rect.mem_set_unit]
  intro a
  match a with
  | ⟨0, _⟩ =>
    show win0_6.index t (0 : Fin 3) * 1 ≤ (i 0).val ∧ (i 0).val < win0_6.index t (0 : Fin 3) * 1 + win0_6.xsize (grid0.coords t) (0 : Fin 3)
    rw [e0, s0]; omega
  | ⟨1, _⟩ =>
    show win0_6.index t (1 : Fin 3) * 384 ≤ (i 1).val ∧ (i 1).val < win0_6.index t (1 : Fin 3) * 384 + win0_6.xsize (grid0.coords t) (1 : Fin 3)
    rw [e1, s1]; omega
  | ⟨2, _⟩ =>
    show win0_6.index t (2 : Fin 3) * 512 ≤ (i 2).val ∧ (i 2).val < win0_6.index t (2 : Fin 3) * 512 + win0_6.xsize (grid0.coords t) (2 : Fin 3)
    rw [s2, e2]; omega

/-- The lookup array after the run. -/
private theorem final_look (c : Dev nD) : (dats m 0 c).arrAt 6 cfg0.N = lookArr m c :=
  (dats m 0 c).arrAt_eq_of_cover 6 (lookArr m c) (fun t _ => flushed_look m c t) (cover_look)

/-- The lookup. -/
theorem res_look (c : Dev nD) :
    Pipeline.afterTail₀ cfgs (dats m) 0 (V0 m) [hostOps1] c main_v7 = lookMap (featArg m c) (codeArg m c) := by
  unfold Pipeline.afterTail₀
  show StableHlo.after hostOps1 _ (Proc.devRef .tc main_v7) = _
  after_results
  have e : Pipeline.withArrays (cfgs 0).spec c (V0 m c) (fun w => (dats m 0 c).arrAt w (cfgs 0).N) (Proc.devRef .tc main_v5_3)
      = lookArr m c := (Pipeline.withArrays_arr spec0 launch0.win.arr_inj c _ _ 6).trans (final_look m c)
  funext i
  have h2 : (i 2).val < 56 := (i 2).isLt
  have h3 : (i 3).val < 56 := (i 3).isLt
  show shapeCast S16x384x56x56 (Pipeline.withArrays (cfgs 0).spec c (V0 m c) (fun w => (dats m 0 c).arrAt w (cfgs 0).N) (Proc.devRef .tc main_v5_3))
    shapeCasts_S16x384x3136_S16x384x56x56 i = _
  rw [e]
  refine (shapeCast_apply (lookArr m c) shapeCasts_S16x384x3136_S16x384x56x56 i
    (ix3 (i 0) (i 1) (⟨(i 2).val * 56 + (i 3).val, by omega⟩ : Fin 3136)) ?_).trans ?_
  · rw [Shape.rowMajor_val_three, Shape.rowMajor_val_four]
    show ((i 0).val * 384 + (i 1).val) * 3136 + ((i 2).val * 56 + (i 3).val)
      = (((i 0).val * 384 + (i 1).val) * 56 + (i 2).val) * 56 + (i 3).val
    omega
  · unfold lookArr lookMap
    exact look_congr (row_entry m c _ _ _ _ rfl) (tcodes_entry m c) (tnorms_entry m c) rfl

end Cert.KernelIdeal.Tile

end
-- ==== Proof.KernelValue.lean ====
/-
  The idealized kernel's whole run with its four results named: the channels-last feature map, the lookup,
  the soft assignment and the distances, each as one function of the feature map and the codebook.
-/
import proofs.«415149_j87600152969629_3_alg».proof.Proof.TileRun
import proofs.«415149_j87600152969629_3_alg».proof.Proof.ArraysRows
import proofs.«415149_j87600152969629_3_alg».proof.Proof.ArraysCols

set_option maxRecDepth 16384

noncomputable section

open scoped BigOperators

namespace Cert.KernelIdeal.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.VQ Idealize.ShloMosaic.ValueIdx

variable (m : (ℓ : Loc nD τ sig) → Buf (Elt Ideal) ℓ) (ρ : Dev nD → PrngReg)

theorem kernel_run : θ_run defs (onTc (τ := τ) (main (F := Ideal))) ⟨m, fun _ => 0, ρ⟩ (fun r => ∀ c : Dev nD,
      r.2.mem ((c.tc : Thread nD τ).loc main_v6) = chanLast (featArg m c)
      ∧ r.2.mem ((c.tc : Thread nD τ).loc main_v7) = lookMap (featArg m c) (codeArg m c)
      ∧ r.2.mem ((c.tc : Thread nD τ).loc main_v8) = softMap (featArg m c) (codeArg m c)
      ∧ r.2.mem ((c.tc : Thread nD τ).loc main_v9) = distMap (featArg m c) (codeArg m c)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run defs _ _).mono (fun r h c => ?_) (run_main m ρ)
  have hc := (h c).2
  exact ⟨(hc main_v6 (Pipeline.mem_restRefs_of main_v6 (by decide) (by decide))).trans (res_chanLast m c),
    (hc main_v7 (Pipeline.mem_restRefs_of main_v7 (by decide) (by decide))).trans (res_look m c),
    (hc main_v8 (Pipeline.mem_restRefs_of main_v8 (by decide) (by decide))).trans (res_soft m c),
    (hc main_v9 (Pipeline.mem_restRefs_of main_v9 (by decide) (by decide))).trans (res_dist m c),
    (hc main_arg0 (Pipeline.mem_restRefs_of main_arg0 (by decide) (by decide))).trans (W_main_arg0 m (dats m) c),
    (hc main_arg1 (Pipeline.mem_restRefs_of main_arg1 (by decide) (by decide))).trans (W_main_arg1 m (dats m) c)⟩

end Cert.KernelIdeal.Tile

end
-- ==== Proof.RefDist.lean ====
/-
  The reference's first and last results at the extended reals. Its flat row n is image n / 3136, position
  (n / 56 % 56, n % 56), with the 384 channels of that position; the channels-last result is the feature map
  re-laid, and the distance at (n, k) is the squared distance of row n to code k.
-/
import proofs.«415149_j87600152969629_3_alg».proof.Proof.Gen.ReferenceIdeal.Read
import proofs.«415149_j87600152969629_3_alg».proof.Proof.RowMath
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.Rows

open Cert.ReferenceIdeal Cert.ReferenceIdeal.Gen Cert.ReferenceIdeal.Read Cert.VQ
open Idealize.ShloMosaic Idealize.ShloMosaic.ValueIdx

variable (x0 : (⟨S16x384x56x56, .f32⟩ : BufTy).Contents (Elt Ideal)) (x1 : (⟨S1024x384, .f32⟩ : BufTy).Contents (Elt Ideal))

/-- Flat row `n`, channel `ch`, read back through the reshape and the transpose: the flat offset n · 384 + ch splits
    into image n / 3136, row n / 56 % 56, column n % 56 and channel ch. -/
private theorem row_idx (n : Fin 50176) (ch : Fin 384) :
    idx_main_v0 (idx_main_v1 (ix2 n ch)) = ix4 (posB n) ch (posH n) (posV n) := by
  have hn := n.isLt
  have hc := ch.isLt
  funext a
  apply Fin.ext
  match a with
  | ⟨0, _⟩ => show (n.val * 384 + ch.val) / 1204224 = n.val / 3136; omega
  | ⟨1, _⟩ => show (n.val * 384 + ch.val) % 384 = ch.val; omega
  | ⟨2, _⟩ => show (n.val * 384 + ch.val) / 21504 % 56 = n.val / 56 % 56; omega
  | ⟨3, _⟩ => show (n.val * 384 + ch.val) / 384 % 56 = n.val % 56; omega

/-- Row `n` of the flattened channels-last feature map is the channels at its image and position. -/
theorem ref_row (n : Fin 50176) (ch : Fin 384) :
    val_main_v1 (F := Ideal) x0 (ix2 n ch) = pix x0 (posB n) (posH n) (posV n) ch := by
  rw [val_main_v1_apply, val_main_v0_apply, row_idx]
  rfl

/-- A channels-last index (b, h, v, c) has flat offset ((b · 56 + h) · 56 + v) · 384 + c; split again by the
    reshape and the transpose it is (b, c, h, v). -/
private theorem chanLast_idx (i : S16x56x56x384.Idx) :
    idx_main_v0 (idx_main_v1 (idx_main_v33 i)) = ix4 (i 0) (i 3) (i 1) (i 2) := by
  have h0 : (i 0).val < 16 := (i 0).isLt
  have h1 : (i 1).val < 56 := (i 1).isLt
  have h2 : (i 2).val < 56 := (i 2).isLt
  have h3 : (i 3).val < 384 := (i 3).isLt
  funext a
  apply Fin.ext
  match a with
  | ⟨0, _⟩ =>
    show (((((i 0).val * 56 + (i 1).val) * 56 + (i 2).val) * 384 + (i 3).val) / 384 * 384
      + ((((i 0).val * 56 + (i 1).val) * 56 + (i 2).val) * 384 + (i 3).val) % 384) / 1204224 = (i 0).val
    omega
  | ⟨1, _⟩ =>
    show (((((i 0).val * 56 + (i 1).val) * 56 + (i 2).val) * 384 + (i 3).val) / 384 * 384
      + ((((i 0).val * 56 + (i 1).val) * 56 + (i 2).val) * 384 + (i 3).val) % 384) % 384 = (i 3).val
    omega
  | ⟨2, _⟩ =>
    show (((((i 0).val * 56 + (i 1).val) * 56 + (i 2).val) * 384 + (i 3).val) / 384 * 384
      + ((((i 0).val * 56 + (i 1).val) * 56 + (i 2).val) * 384 + (i 3).val) % 384) / 21504 % 56 = (i 1).val
    omega
  | ⟨3, _⟩ =>
    show (((((i 0).val * 56 + (i 1).val) * 56 + (i 2).val) * 384 + (i 3).val) / 384 * 384
      + ((((i 0).val * 56 + (i 1).val) * 56 + (i 2).val) * 384 + (i 3).val) % 384) / 384 % 56 = (i 2).val
    omega

theorem ref_chanLast : val_main_v33 (F := Ideal) x0 = chanLast x0 := by
  funext i
  rw [val_main_v33_apply, val_main_v1_apply, val_main_v0_apply, chanLast_idx]
  rfl

/-- The row's sum of squares: the host sum starts from the constant 0 and adds the 384 squared channels. -/
private theorem sq_row (n : Fin 50176) :
    val_main_v3 (F := Ideal) x0 (ix1 n)
      = ∑ c : Fin 384, pix x0 (posB n) (posH n) (posV n) c * pix x0 (posB n) (posH n) (posV n) c := by
  rw [val_main_v3_apply, val_main_cst_apply, Ideal.ofBits_def, Ideal.ofBits_zero_f32, zero_add]
  refine Finset.sum_congr rfl fun c _ => ?_
  have e : idx_main_v3 (ix1 n) c = ix2 n c :=
    funext fun a => Fin.ext (by match a with | ⟨0, _⟩ => rfl | ⟨1, _⟩ => rfl)
  rw [e, val_main_v2_apply, ref_row, Ideal.mulf_def]

/-- The squared norm of code `k`, summed the same way. -/
private theorem sq_code (k : Fin 1024) :
    val_main_v6 (F := Ideal) x1 (ix1 k) = norms x1 k := by
  rw [val_main_v6_apply, val_main_cst_0_apply, Ideal.ofBits_def, Ideal.ofBits_zero_f32, zero_add]
  refine Finset.sum_congr rfl fun c _ => ?_
  have e : idx_main_v6 (ix1 k) c = ix2 k c :=
    funext fun a => Fin.ext (by match a with | ⟨0, _⟩ => rfl | ⟨1, _⟩ => rfl)
  rw [e, val_main_v5_apply, Ideal.mulf_def]

/-- The two broadcast columns added: the row's sum of squares plus the code's squared norm. -/
private theorem sq_sum (n : Fin 50176) (k : Fin 1024) :
    val_main_v10 (F := Ideal) x0 x1 (ix2 n k)
      = (∑ c : Fin 384, pix x0 (posB n) (posH n) (posV n) c * pix x0 (posB n) (posH n) (posV n) c) + norms x1 k := by
  have e8 : idx_main_v4 (idx_main_v8 (ix2 n k)) = ix1 n :=
    funext fun a => Fin.ext (by match a with | ⟨0, _⟩ => rfl)
  have e9 : idx_main_v7 (idx_main_v9 (ix2 n k)) = ix1 k :=
    funext fun a => Fin.ext (by match a with | ⟨0, _⟩ => rfl)
  rw [val_main_v10_apply, val_main_v8_apply, val_main_v4_apply, e8, sq_row, val_main_v9_apply, val_main_v7_apply, e9,
    sq_code, Ideal.addf_def]

/-- The product of the rows with the transposed codebook at (n, k): the sum over the channels of row n times code k. -/
private theorem cross (n : Fin 50176) (k : Fin 1024) :
    val_main_v12 (F := Ideal) x0 x1 (ix2 n k)
      = ∑ c : Fin 384, pix x0 (posB n) (posH n) (posV n) c * codes x1 k c := by
  rw [val_main_v12_apply]
  refine Finset.sum_congr rfl fun c _ => ?_
  have el : lidx_main_v12 (ix2 n k) c = ix2 n c :=
    funext fun a => Fin.ext (by match a with | ⟨0, _⟩ => rfl | ⟨1, _⟩ => rfl)
  have er : idx_main_v11 (ridx_main_v12 (ix2 n k) c) = ix2 k c :=
    funext fun a => Fin.ext (by match a with | ⟨0, _⟩ => rfl | ⟨1, _⟩ => rfl)
  rw [el, ref_row, val_main_v11_apply, er]
  rfl

/-- The reference's distance array at (row, code). -/
theorem ref_dist_apply (n : Fin 50176) (k : Fin 1024) :
    val_main_v15 (F := Ideal) x0 x1 (ix2 n k) = dist (pix x0 (posB n) (posH n) (posV n)) (codes x1) (norms x1) k := by
  rw [val_main_v15_apply, sq_sum, val_main_v14_apply, val_main_v13_apply, val_main_cst_1_apply, cross,
    Ideal.ofBits_def, Ideal.mulf_def, Ideal.subf_def]
  rfl

theorem ref_dist : val_main_v15 (F := Ideal) x0 x1 = distMap x0 x1 := by
  funext i
  obtain ⟨n, k, rfl⟩ : ∃ (n : Fin 50176) (k : Fin 1024), i = ix2 n k := ⟨i 0, i 1, eq_ix2 i⟩
  rw [ref_dist_apply]
  rfl

end Cert.ReferenceIdeal.Rows

end
-- ==== Proof.RefSoft.lean ====
/-
  The reference's softmax and lookup at the extended reals: at flat row n the softmax over the codes of the
  negated distances is the soft assignment of that row, and the product with the codebook is its lookup; the
  two results are these re-laid with codes, or channels, second.
-/
import proofs.«415149_j87600152969629_3_alg».proof.Proof.RefDist
import proofs.«415149_j87600152969629_3_alg».proof.Proof.RowMath
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open scoped BigOperators

namespace Cert.ReferenceIdeal.Rows

open Cert.ReferenceIdeal Cert.ReferenceIdeal.Gen Cert.ReferenceIdeal.Read Cert.VQ
open Idealize.ShloMosaic Idealize.ShloMosaic.ValueIdx

variable (x0 : (⟨S16x384x56x56, .f32⟩ : BufTy).Contents (Elt Ideal)) (x1 : (⟨S1024x384, .f32⟩ : BufTy).Contents (Elt Ideal))

/-- The negated distance at (row, code). -/
private theorem v16_at (n : Fin 50176) (k : Fin 1024) :
    val_main_v16 (F := Ideal) x0 x1 (ix2 n k) = -dist (pix x0 (posB n) (posH n) (posV n)) (codes x1) (norms x1) k := by
  rw [val_main_v16_apply, Ideal.hostNegf_def, Ideal.negf_def, ref_dist_apply]

/-- Row `n` with code `k` put back on the dropped axis is (n, k). -/
private theorem lift_row (h : S50176x1024.Reduces [1] S50176) (n : Fin 50176) (k : Fin (S50176x1024.size 1)) :
    h.lift (ix1 n) k = ix2 n (⟨k.val, k.isLt⟩ : Fin 1024) := by
  funext c; apply Fin.ext
  match c with
  | ⟨0, _⟩ => rfl
  | ⟨1, _⟩ => rfl

/-- The maximum over the codes of row `n`'s negated distances, from −∞. -/
private theorem v17_at (n : Fin 50176) :
    val_main_v17 (F := Ideal) x0 x1 (ix1 n) = top (pix x0 (posB n) (posH n) (posV n)) (codes x1) (norms x1) := by
  unfold val_main_v17
  have h : S50176x1024.Reduces [1] S50176 := by decide
  rw [Host.reduce_eq_fold_single FloatOps.maximumf _ _ reducesTo_S50176x1024_S50176_d1 h h_S_]
  have hf : (val_main_v16 (F := Ideal) x0 x1 ∘ h.lift (ix1 n))
      = fun k : Fin 1024 => -dist (pix x0 (posB n) (posH n) (posV n)) (codes x1) (norms x1) k :=
    funext fun k => by
      show val_main_v16 (F := Ideal) x0 x1 (h.lift (ix1 n) k) = _
      rw [lift_row h n k]; exact v16_at x0 x1 n _
  rw [hf]; rfl

/-- The maximum with −∞ again changes nothing. -/
private theorem v19_at (n : Fin 50176) :
    val_main_v19 (F := Ideal) x0 x1 (ix1 n) = top (pix x0 (posB n) (posH n) (posV n)) (codes x1) (norms x1) := by
  rw [val_main_v19_apply, Ideal.maximumf_def, v17_at, val_main_v18_apply, val_main_cst_3_apply, Ideal.ofBits_def]
  exact max_eq_right ((Finset.le_fold_max _).2 (Or.inl le_rfl))

private theorem v21_at (n : Fin 50176) (k : Fin 1024) :
    val_main_v21 (F := Ideal) x0 x1 (ix2 n k) = top (pix x0 (posB n) (posH n) (posV n)) (codes x1) (norms x1) := by
  rw [val_main_v21_apply, val_main_v20_apply]
  have e : idx_main_v20 (idx_main_v21 (ix2 n k)) = ix1 n := funext fun a => by
    match a with
    | ⟨0, _⟩ => rfl
  rw [e, v19_at]

/-- The shifted exponential at (row, code). -/
private theorem v23_at (n : Fin 50176) (k : Fin 1024) :
    val_main_v23 (F := Ideal) x0 x1 (ix2 n k) = ew (pix x0 (posB n) (posH n) (posV n)) (codes x1) (norms x1) k := by
  rw [val_main_v23_apply, Ideal.hostUnary_exp_def, val_main_v22_apply, Ideal.subf_def, v16_at, v21_at]
  rfl

/-- The sum of row `n`'s shifted exponentials. -/
private theorem v24_at (n : Fin 50176) :
    val_main_v24 (F := Ideal) x0 x1 (ix1 n)
      = ∑ k' : Fin 1024, ew (pix x0 (posB n) (posH n) (posV n)) (codes x1) (norms x1) k' := by
  rw [val_main_v24_apply, val_main_cst_4_apply, Ideal.ofBits_def, Ideal.ofBits_zero_f32, zero_add]
  refine Finset.sum_congr rfl fun k _ => ?_
  have e : idx_main_v24 (ix1 n) k = ix2 n k := funext fun a => by
    match a with
    | ⟨0, _⟩ => rfl
    | ⟨1, _⟩ => rfl
  rw [e, v23_at]

private theorem v26_at (n : Fin 50176) (k : Fin 1024) :
    val_main_v26 (F := Ideal) x0 x1 (ix2 n k)
      = ∑ k' : Fin 1024, ew (pix x0 (posB n) (posH n) (posV n)) (codes x1) (norms x1) k' := by
  rw [val_main_v26_apply, val_main_v25_apply]
  have e : idx_main_v25 (idx_main_v26 (ix2 n k)) = ix1 n := funext fun a => by
    match a with
    | ⟨0, _⟩ => rfl
  rw [e, v24_at]

/-- The reference's softmax at (row, code). -/
theorem ref_soft_apply (n : Fin 50176) (k : Fin 1024) :
    val_main_v27 (F := Ideal) x0 x1 (ix2 n k) = soft (pix x0 (posB n) (posH n) (posV n)) (codes x1) (norms x1) k := by
  rw [val_main_v27_apply, Ideal.hostDivf_def, v23_at, v26_at]
  rfl

/-- The flat position of image `b`, row `h`, column `v`. -/
private def flat (b : Fin 16) (h v : Fin 56) : Fin 50176 :=
  ⟨(b.val * 56 + h.val) * 56 + v.val, by have := b.isLt; have := h.isLt; have := v.isLt; omega⟩

private theorem posB_flat (b : Fin 16) (h v : Fin 56) : posB (flat b h v) = b :=
  Fin.ext (by have := b.isLt; have := h.isLt; have := v.isLt; show ((b.val * 56 + h.val) * 56 + v.val) / 3136 = b.val; omega)
private theorem posH_flat (b : Fin 16) (h v : Fin 56) : posH (flat b h v) = h :=
  Fin.ext (by have := b.isLt; have := h.isLt; have := v.isLt; show ((b.val * 56 + h.val) * 56 + v.val) / 56 % 56 = h.val; omega)
private theorem posV_flat (b : Fin 16) (h v : Fin 56) : posV (flat b h v) = v :=
  Fin.ext (by have := b.isLt; have := h.isLt; have := v.isLt; show ((b.val * 56 + h.val) * 56 + v.val) % 56 = v.val; omega)

theorem ref_soft : val_main_v32 (F := Ideal) x0 x1 = softMap x0 x1 := by
  funext i
  have h0 : (i 0).val < 16 := (i 0).isLt
  have h1 : (i 1).val < 1024 := (i 1).isLt
  have h2 : (i 2).val < 56 := (i 2).isLt
  have h3 : (i 3).val < 56 := (i 3).isLt
  rw [val_main_v32_apply, val_main_v31_apply]
  have e : idx_main_v31 (idx_main_v32 i)
      = ix2 (flat ⟨(i 0).val, h0⟩ ⟨(i 2).val, h2⟩ ⟨(i 3).val, h3⟩) (⟨(i 1).val, h1⟩ : Fin 1024) := funext fun a => Fin.ext (by
    match a with
    | ⟨0, _⟩ =>
      show ((((i 0).val * 56 + (i 2).val) * 56 + (i 3).val) * 1024 + (i 1).val) / 1024 = ((i 0).val * 56 + (i 2).val) * 56 + (i 3).val
      omega
    | ⟨1, _⟩ =>
      show ((((i 0).val * 56 + (i 2).val) * 56 + (i 3).val) * 1024 + (i 1).val) % 1024 = (i 1).val
      omega)
  rw [e, ref_soft_apply, posB_flat, posH_flat, posV_flat]
  rfl

theorem ref_look : val_main_v30 (F := Ideal) x0 x1 = lookMap x0 x1 := by
  funext i
  rw [val_main_v30_apply, val_main_v29_apply, val_main_v28_apply]
  have h0 : (i 0).val < 16 := (i 0).isLt
  have h1 : (i 1).val < 384 := (i 1).isLt
  have h2 : (i 2).val < 56 := (i 2).isLt
  have h3 : (i 3).val < 56 := (i 3).isLt
  show _ = ∑ k : Fin 1024, soft (pix x0 ⟨(i 0).val, h0⟩ ⟨(i 2).val, h2⟩ ⟨(i 3).val, h3⟩) (codes x1) (norms x1) k
      * codes x1 k (⟨(i 1).val, h1⟩ : Fin 384)
  refine Finset.sum_congr rfl fun k _ => ?_
  have el : lidx_main_v28 (idx_main_v29 (idx_main_v30 i)) k
      = ix2 (flat ⟨(i 0).val, h0⟩ ⟨(i 2).val, h2⟩ ⟨(i 3).val, h3⟩) k := funext fun a => Fin.ext (by
    match a with
    | ⟨0, _⟩ =>
      show ((((i 0).val * 56 + (i 2).val) * 56 + (i 3).val) * 384 + (i 1).val) / 384 = ((i 0).val * 56 + (i 2).val) * 56 + (i 3).val
      omega
    | ⟨1, _⟩ => rfl)
  have er : ridx_main_v28 (idx_main_v29 (idx_main_v30 i)) k = ix2 k (⟨(i 1).val, h1⟩ : Fin 384) := funext fun a => Fin.ext (by
    match a with
    | ⟨0, _⟩ => rfl
    | ⟨1, _⟩ =>
      show ((((i 0).val * 56 + (i 2).val) * 56 + (i 3).val) * 384 + (i 1).val) % 384 = (i 1).val
      omega)
  rw [el, er, ref_soft_apply, posB_flat, posH_flat, posV_flat]
  rfl

end Cert.ReferenceIdeal.Rows

end
-- ==== Proof.lean ====
/-
  The soft vector-quantisation kernel against its jnp reference, over the extended reals.

  Both programs compute, for each of the 16 · 3136 spatial positions, from that position's 384 channels x and the
  codebook w: the squared distances (Σ x² + Σ w_k²) − 2 · Σ x · w_k to the 1024 codes, the softmax of the negated
  distances (shifted by their maximum), and the softmax-weighted sum of the codes; and they return the feature map
  with channels last, the weighted sum, the softmax and the distances, each in its own layout. The kernel works on
  tiles of 512 positions of one image; 3136 = 6 · 512 + 64, so the last tile of each image reaches 448 positions
  past the array's end, where the staging buffer holds values nothing names. Every stored row depends on the
  matching row of the tile only, and only the rows inside the array are written back, so those values reach no
  result element. With the tiles pieced together each result is one function of the arguments (Proof/RowMath.lean),
  and the reference's results read index by index are the same functions.

  The frames: the idealized kernel's is its run with the results dropped; the reference's is its run; the printed
  kernel at the word level runs with its result buffers' contents forgotten (Proof/BitsFrame.lean). The
  idealization rewrote nothing, so there is nothing to preserve.
-/
import proofs.«415149_j87600152969629_3_alg».proof.Defs
import proofs.«415149_j87600152969629_3_alg».proof.Proof.Gen.Kernel
import proofs.«415149_j87600152969629_3_alg».proof.Proof.Gen.KernelIdeal
import proofs.«415149_j87600152969629_3_alg».proof.Proof.Gen.ReferenceIdeal
import proofs.«415149_j87600152969629_3_alg».proof.Proof.Gen.Pre_finite_inputs
import proofs.«415149_j87600152969629_3_alg».proof.Proof.Gen.ReferenceIdeal.Run
import proofs.«415149_j87600152969629_3_alg».proof.Proof.Gen.ReferenceIdeal.Read
import proofs.«415149_j87600152969629_3_alg».proof.Proof.BitsFrame
import proofs.«415149_j87600152969629_3_alg».proof.Proof.KernelValue
import proofs.«415149_j87600152969629_3_alg».proof.Proof.RefSoft

noncomputable section

namespace Cert.Proof

open Idealize.ShloMosaic Idealize.ShloMosaic.TcCoe Idealize.SL.Sem

theorem frame_kernel : @Cert.frame_Kernel Cert.Kernel.Gen.facts Cert.Pre_finite_inputs.Gen.facts :=
  fun m ρ _ => Cert.Kernel.Tile.frame (F := Bits) m ρ

theorem frame_kernelIdeal : @Cert.frame_KernelIdeal Cert.KernelIdeal.Gen.facts Cert.Pre_finite_inputs.Gen.facts :=
  fun m ρ _ => Cert.KernelIdeal.Tile.frame m ρ

theorem frame_reference : @Cert.frame_ReferenceIdeal Cert.ReferenceIdeal.Gen.facts Cert.Pre_finite_inputs.Gen.facts :=
  fun m ρ _ => (θ_run Cert.ReferenceIdeal.defs _ _).mono (fun _ h c => ⟨(h c).2.2.2.2.1, (h c).2.2.2.2.2⟩)
    (Cert.ReferenceIdeal.Value.run (F := Ideal) m ρ)

/-- Both idealized programs end with the four result arrays of Proof/RowMath.lean at the arguments. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨_, _, _, _, Cert.KernelIdeal.Tile.kernel_run m ρ, ?_⟩
  refine (θ_run Cert.ReferenceIdeal.defs _ _).mono (fun _ h c => ?_) (Cert.ReferenceIdeal.Value.run (F := Ideal) m' ρ')
  obtain ⟨h33, h30, h32, h15, ha0, ha1⟩ := h c
  refine ⟨?_, ?_, ?_, ?_, ha0, ha1⟩
  · rw [h33, Cert.ReferenceIdeal.Read.val_main_v33_eq, Cert.ReferenceIdeal.Rows.ref_chanLast, (hagree c).1]
  · rw [h30, Cert.ReferenceIdeal.Read.val_main_v30_eq, Cert.ReferenceIdeal.Rows.ref_look, (hagree c).1, (hagree c).2]
  · rw [h32, Cert.ReferenceIdeal.Read.val_main_v32_eq, Cert.ReferenceIdeal.Rows.ref_soft, (hagree c).1, (hagree c).2]
  · rw [h15, Cert.ReferenceIdeal.Read.val_main_v15_eq, Cert.ReferenceIdeal.Rows.ref_dist, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
